-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S32 : Shape := ⟨1, ![32]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x1024 .f32) (main_arg9 : FVec F S1 .f32) (main_v33 : IVec S_ 1) : IVec S_ 1 :=
  let main_v34 : FVec F S1x1024 .f32 := Host.absf main_arg8
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S1024 .f32) (main_arg6 : FVec F S1024x1024 .f32) (main_arg7 : FVec F S1024 .f32) (main_arg8 : FVec F S1x1024 .f32) (main_arg9 : FVec F S1 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_v33

def fn {F : FTy → Type} [FloatOps F] (main_arg0 : FVec F S32x2048x1024 .f32) (main_arg1 : FVec F S32x2048x1024 .f32) (main_arg2 : FVec F S32x2048x1024 .f32) (main_arg3 : IVec S32 32) (main_arg4 : FVec F S1024x1024 .f32) (main_arg5 : FVec F S1024 .f32) (main_arg6 : FVec F S1024x1024 .f32) (main_arg7 : FVec F S1024 .f32) (main_arg8 : FVec F S1x1024 .f32) (main_arg9 : FVec F S1 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S32x2048x1024 .f32 := Host.absf main_arg1
  let main_cst_0 : FVec F S_ .f32 := constant S_ .f32 0x7F800000#32
  let main_v5 : FVec F S32x2048x1024 .f32 := broadcastInDim S32x2048x1024 ![] bcast_S_S32x2048x1024 main_cst_0
  let main_v6 : IVec S32x2048x1024 1 := cmpf .olt main_v4 main_v5
  let main_c_1 : IVec S_ 1 := constantI S_ 1 1#1
  let main_v7 : IVec S_ 1 := (fun x v => Host.reduce IntOp.andi x v reducesTo_S32x2048x1024_S_d0_1_2 h_S_) main_v6 main_c_1
  let main_v8 : IVec S_ 1 := andi main_v3 main_v7
  let main_v9 : FVec F S32x2048x1024 .f32 := Host.absf main_arg2
  let main_cst_2 : FVec F S_ .f32 := constant S_ .f32 0x7F800000#32
  let main_v10 : FVec F S32x2048x1024 .f32 := broadcastInDim S32x2048x1024 ![] bcast_S_S32x2048x1024 main_cst_2
  let main_v11 : IVec S32x2048x1024 1 := cmpf .olt main_v9 main_v10
  let main_c_3 : IVec S_ 1 := constantI S_ 1 1#1
  let main_v12 : IVec S_ 1 := (fun x v => Host.reduce IntOp.andi x v reducesTo_S32x2048x1024_S_d0_1_2 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_arg8 main_arg9 main_v13 main_v16
-- ==== Kernel.lean ====
abbrev S32x2048x1024 : Shape := ⟨3, ![32, 2048, 1024]⟩
abbrev S32 : Shape := ⟨1, ![32]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S2048x1024 : Shape := ⟨2, ![2048, 1024]⟩
abbrev S32x1x1024 : Shape := ⟨3, ![32, 1, 1024]⟩
abbrev S32x1x2048 : Shape := ⟨3, ![32, 1, 2048]⟩
abbrev S1x512x1024 : Shape := ⟨3, ![1, 512, 1024]⟩
abbrev S1x1x1024 : Shape := ⟨3, ![1, 1, 1024]⟩
abbrev S1x1x2048 : Shape := ⟨3, ![1, 1, 2048]⟩
abbrev S1x1 : Shape := ⟨2, ![1, 1]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x512 : Shape := ⟨2, ![1, 512]⟩
abbrev S1x1x1 : Shape := ⟨3, ![1, 1, 1]⟩
abbrev S1x1x512 : Shape := ⟨3, ![1, 1, 512]⟩
abbrev S32x2048x1 : Shape := ⟨3, ![32, 2048, 1]⟩

abbrev nBuf : Space → Nat
  | .hbm => 17
  | .vmem => 17
  | .smem => 1
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S1, .f32⟩
  | .hbm, ⟨9, _⟩ => ⟨S1024x1024, .f32⟩
  | .hbm, ⟨10, _⟩ => ⟨S1024x1024, .f32⟩
  | .hbm, ⟨11, _⟩ => ⟨S2048x1024, .f32⟩
  | .hbm, ⟨12, _⟩ => ⟨S2048x1024, .bf16⟩
  | .hbm, ⟨13, _⟩ => ⟨S1024, .f32⟩
  | .hbm, ⟨14, _⟩ => ⟨S32x1x1024, .f32⟩
  | .hbm, ⟨15, _⟩ => ⟨S32x1x2048, .f32⟩
  | .hbm, ⟨16, _⟩ => ⟨S32x2048x1, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S2048x1024, .bf16⟩
  | .local _ .vmem, ⟨7, _⟩ => ⟨S1024, .f32⟩
  | .local _ .vmem, ⟨8, _⟩ => ⟨S1x1024, .f32⟩
  | .local _ .vmem, ⟨9, _⟩ => ⟨S1, .f32⟩
  | .local _ .vmem, ⟨10, _⟩ => ⟨S1x1x1024, .f32⟩
  | .local _ .vmem, ⟨11, _⟩ => ⟨S1x1x1024, .f32⟩
  | .local _ .vmem, ⟨12, _⟩ => ⟨S1x1x2048, .f32⟩
  | .local _ .vmem, ⟨13, _⟩ => ⟨S1x1x2048, .f32⟩
  | .local _ .vmem, ⟨14, _⟩ => ⟨S1x1, .f32⟩
  | .local _ .vmem, ⟨15, _⟩ => ⟨S1x1, .f32⟩
  | .local _ .vmem, ⟨16, _⟩ => ⟨S1x1024, .f32⟩
  | .local _ .smem, ⟨0, _⟩ => ⟨S32, .i32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v6 : Ref sig .tc := ⟨.hbm, 16, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 4], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v32 : Index := Scalar.indexCast arg0
  ![v32.toNat]
def k0_mult1 (i : grid0.Coords) : BitVec 32 :=
  let arg1 : BitVec 32 := BitVec.ofNat 32 (i 1).val
  let c512_i32_36 : BitVec 32 := 512#32
  let v78 : BitVec 32 := Scalar.muli arg1 c512_i32_36
  v78
def k0_off2 (i : grid0.Coords) : Fin 3 → Nat :=
  let c0_37 : Index := 0#32
  let c0_38 : Index := 0#32
  let arg1 : BitVec 32 := BitVec.ofNat 32 (i 1).val
  let c512_i32_36 : BitVec 32 := 512#32
  let v78 : BitVec 32 := Scalar.muli arg1 c512_i32_36
  let v79 : BitVec 32 := v78
  let v80 : Index := Scalar.indexCast v79
  ![0, 0, v80.toNat]
def k0_cond2 (i : grid0.Coords) : BitVec 1 :=
  let arg1 : BitVec 32 := BitVec.ofNat 32 (i 1).val
  let c3_i32 : BitVec 32 := 3#32
  let v87 : BitVec 1 := Scalar.cmpi .eq arg1 c3_i32
  let v88 : BitVec 32 := Scalar.extui v87
  let c0_i32_41 : BitVec 32 := 0#32
  let v89 : BitVec 1 := Scalar.cmpi .ne v88 c0_i32_41
  v89

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  transposes_S1024x1024_S1024x1024_1_0 : S1024x1024.Transposes [1, 0] S1024x1024
  concatenates_S1024x1024_S1024x1024_S2048x1024_d0 : Shape.Concatenates [S1024x1024, S1024x1024] S2048x1024 0
  bitsLt_bf16_f32 : FTy.bits .bf16 < FTy.bits .f32
  inb_S1x1x2048_S1x1x2048_0_0_0 : ∀ a, (![0, 0, 0] : Fin 3 → Nat) a + S1x1x2048.size a ≤ S1x1x2048.size a
  h_S1x1x2048 : 0 < S1x1x2048.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  concatenates_S512x1024_S512x1024_S512x2048_d1 : Shape.Concatenates [S512x1024, S512x1024] S512x2048 1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S512x1024 : S1x1024.Broadcasts S512x1024
  reduces_S512x1024_S512 : S512x1024.Reduces [1] S512
  shapeCasts_S512_S512x1 : S512.ShapeCasts S512x1
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  iota_S512x1_d0_w32 : S512x1.Iotas .tc 32 [0]
  numel1_S1 : S1.numel = 1
  reduces_S512x1_S1 : S512x1.Reduces [0] S1
  transposes_S512x1_p1_0_S1x512 : S512x1.Transposes [1, 0] S1x512
  broadcasts_S512x1_S512x1024 : S512x1.Broadcasts S512x1024
  reduces_S512x1024_S1024 : S512x1024.Reduces [0] S1024
  broadcasts_S1x1_S1x1024 : S1x1.Broadcasts S1x1024
  shapeCasts_S1x1x2048_S1x1x2048 : S1x1x2048.ShapeCasts S1x1x2048
  shapeCasts_S1x1_S1x1x1 : S1x1.ShapeCasts S1x1x1
  broadcasts_S1x1x1_S1x1x2048 : S1x1x1.Broadcasts S1x1x2048
  h_S1x1x512 : 0 < S1x1x512.numel
  shapeCasts_S1x1x512_S1x512 : S1x1x512.ShapeCasts S1x512
  shapeCasts_S1x512_S1x1x512 : S1x512.ShapeCasts S1x1x512
  shapeCasts_S1x1024_S1024 : S1x1024.ShapeCasts S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1x1024 : S1024.ShapeCasts S1x1x1024
  transposes_S32x1x2048_S32x2048x1_0_2_1 : S32x1x2048.Transposes [0, 2, 1] S32x2048x1
  dot_S512x2048_S2048x1024_S512x1024_1_0_0_1_n_n_wf : DotDims.WF S512x2048 S2048x1024 S512x1024 [1] [0] [0] [1] [] []
  hrank0 : 0 < grid0.rank
  k0_off1_inb : ∀ i : grid0.Coords, ∀ a, (k0_off1 i) a + S1.size a ≤ S32.size a
  k0_mult1_dvd : ∀ i : grid0.Coords, 512 ∣ (k0_mult1 i).toNat
  k0_off2_inb : ∀ i : grid0.Coords, ∀ a, (k0_off2 i) a + S1x1x512.size a ≤ S1x1x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x2048x1024.size a
  hwx0_0 : ∀ i : grid0.Coords, EltTy.bits .f32 = 32 ∨ (Rect.block (s := S32x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S32x2048x1024.size a
  hwx0_1 : ∀ i : grid0.Coords, EltTy.bits .f32 = 32 ∨ (Rect.block (s := S32x2048x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S32x2048x1024.size a
  hwx0_2 : ∀ i : grid0.Coords, EltTy.bits .f32 = 32 ∨ (Rect.block (s := S32x2048x1024) S1x512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1024.size a ≤ S32x1x1024.size a
  hwx0_7 : ∀ i : grid0.Coords, EltTy.bits .f32 = 32 ∨ (Rect.block (s := S32x1x1024) S1x1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x2048.size a ≤ S32x1x2048.size a
  hwx0_8 : ∀ i : grid0.Coords, EltTy.bits .f32 = 32 ∨ (Rect.block (s := S32x1x2048) S1x1x2048.size (cc0_transform_8 i) (hinb0_8 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev spec0_0 : Pipeline.WinSpec sig grid0.rank :=
  Pipeline.WinSpec.ofSpec (Memref.whole main_arg0) S1x512x1024.size reads0_0 false false 2 stage0_0 sem0_0 nbuf0_0 hstage0_0

abbrev spec0_1 : Pipeline.WinSpec sig grid0.rank :=
  Pipeline.WinSpec.ofSpec (Memref.whole main_arg1) S1x512x1024.size reads0_1 false false 2 stage0_1 sem0_1 nbuf0_1 hstage0_1

abbrev spec0_2 : Pipeline.WinSpec sig grid0.rank :=
  Pipeline.WinSpec.ofSpec (Memref.whole main_arg2) S1x512x1024.size reads0_2 false false 2 stage0_2 sem0_2 nbuf0_2 hstage0_2

abbrev spec0_3 : Pipeline.WinSpec sig grid0.rank :=
  Pipeline.WinSpec.ofSpec (Memref.whole main_v3) S2048x1024.size reads0_3 false true 1 stage0_3 sem0_3 nbuf0_3 hstage0_3

abbrev spec0_4 : Pipeline.WinSpec sig grid0.rank :=
  Pipeline.WinSpec.ofSpec (Memref.whole main_v4) S1024.size reads0_4 false true 1 stage0_4 sem0_4 nbuf0_4 hstage0_4

abbrev spec0_5 : Pipeline.WinSpec sig grid0.rank :=
  Pipeline.WinSpec.ofSpec (Memref.whole main_arg8) S1x1024.size reads0_5 false true 1 stage0_5 sem0_5 nbuf0_5 hstage0_5

abbrev spec0_6 : Pipeline.WinSpec sig grid0.rank :=
  Pipeline.WinSpec.ofSpec (Memref.whole main_arg9) S1.size reads0_6 false true 1 stage0_6 sem0_6 nbuf0_6 hstage0_6

abbrev spec0_7 : Pipeline.WinSpec sig grid0.rank :=
  Pipeline.WinSpec.ofSpec (Memref.whole main_v5_0) S1x1x1024.size reads0_7 true false 2 stage0_7 sem0_7 nbuf0_7 hstage0_7

abbrev spec0_8 : Pipeline.WinSpec sig grid0.rank :=
  Pipeline.WinSpec.ofSpec (Memref.whole main_v5_1) S1x1x2048.size reads0_8 true false 2 stage0_8 sem0_8 nbuf0_8 hstage0_8

abbrev spec0 : Fin 9 → Pipeline.WinSpec sig grid0.rank := fun | 0 => spec0_0 | 1 => spec0_1 | 2 => spec0_2 | 3 => spec0_3 | 4 => spec0_4 | 5 => spec0_5 | 6 => spec0_6 | 7 => spec0_7 | 8 => spec0_8 | ⟨_ + 9, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | ⟨_ + 9, h⟩ => absurd h (Nat.not_lt.2 (Nat.le_add_left _ _))
abbrev ix0 (pf : pre0.Contents (Elt F)) : (w : Fin 9) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | 8 => cc0_transform_8 | ⟨_ + 9, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | ⟨_ + 9, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | ⟨_ + 9, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | ⟨_ + 9, h⟩ => absurd h (Nat.not_lt.2 (Nat.le_add_left _ _))
abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun _ => false | ⟨_ + 9, h⟩ => absurd h (Nat.not_lt.2 (Nat.le_add_left _ _))

class Facts : Prop extends Facts₀ where
  harr0 : ∀ w, (spec0 w).arr.IsWhole

variable [Facts]
-- ==== ReferenceIdeal.lean ====
abbrev S32x2048x1024 : Shape := ⟨3, ![32, 2048, 1024]⟩
abbrev S32 : Shape := ⟨1, ![32]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S1x1x1024 : Shape := ⟨3, ![1, 1, 1024]⟩
abbrev S32x2048x1 : Shape := ⟨3, ![32, 2048, 1]⟩
abbrev S1x1x1 : Shape := ⟨3, ![1, 1, 1]⟩
abbrev S2048 : Shape := ⟨1, ![2048]⟩
abbrev S1x2048x1 : Shape := ⟨3, ![1, 2048, 1]⟩
abbrev S32x1x1 : Shape := ⟨3, ![32, 1, 1]⟩
abbrev S_ : Shape := ⟨0, ![]⟩
abbrev S32x1 : Shape := ⟨2, ![32, 1]⟩
abbrev S32x1x1024 : Shape := ⟨3, ![32, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x1024, .f32⟩
  | .hbm, ⟨3, _⟩ => ⟨S32, .i32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1x1024, .f32⟩
  | .hbm, ⟨9, _⟩ => ⟨S1, .f32⟩
  | .hbm, ⟨10, _⟩ => ⟨S32x2048x1024, .f32⟩
  | .hbm, ⟨11, _⟩ => ⟨S1x1x1024, .f32⟩
  | .hbm, ⟨12, _⟩ => ⟨S32x2048x1024, .f32⟩
  | .hbm, ⟨13, _⟩ => ⟨S32x2048x1024, .f32⟩
  | .hbm, ⟨14, _⟩ => ⟨S32x2048x1024, .f32⟩
  | .hbm, ⟨15, _⟩ => ⟨S1x1x1024, .f32⟩
  | .hbm, ⟨16, _⟩ => ⟨S32x2048x1024, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S32x2048x1, .f32⟩
  | .hbm, ⟨21, _⟩ => ⟨S1x1x1, .f32⟩
  | .hbm, ⟨22, _⟩ => ⟨S32x2048x1, .f32⟩
  | .hbm, ⟨23, _⟩ => ⟨S32x2048x1, .f32⟩
  | .hbm, ⟨24, _⟩ => ⟨S2048, .i32⟩
  | .hbm, ⟨25, _⟩ => ⟨S1x2048x1, .i32⟩
  | .hbm, ⟨26, _⟩ => ⟨S32x1x1, .i32⟩
  | .hbm, ⟨27, _⟩ => ⟨S32x2048x1, .i32⟩
  | .hbm, ⟨28, _⟩ => ⟨S32x2048x1, .i32⟩
  | .hbm, ⟨29, _⟩ => ⟨S32x2048x1, .i1⟩
  | .hbm, ⟨30, _⟩ => ⟨S_, .f32⟩
  | .hbm, ⟨31, _⟩ => ⟨S_, .f32⟩
  | .hbm, ⟨32, _⟩ => ⟨S32x2048x1, .f32⟩
  | .hbm, ⟨33, _⟩ => ⟨S32x2048x1, .f32⟩
  | .hbm, ⟨34, _⟩ => ⟨S_, .f32⟩
  | .hbm, ⟨35, _⟩ => ⟨S32x1, .f32⟩
  | .hbm, ⟨36, _⟩ => ⟨S_, .f32⟩
  | .hbm, ⟨37, _⟩ => ⟨S32x1, .f32⟩
  | .hbm, ⟨38, _⟩ => ⟨S32x1, .f32⟩
  | .hbm, ⟨39, _⟩ => ⟨S32x1x1, .f32⟩
  | .hbm, ⟨40, _⟩ => ⟨S32x2048x1, .f32⟩
  | .hbm, ⟨41, _⟩ => ⟨S32x2048x1, .f32⟩
  | .hbm, ⟨42, _⟩ => ⟨S32x2048x1, .f32⟩
  | .hbm, ⟨43, _⟩ => ⟨S_, .f32⟩
  | .hbm, ⟨44, _⟩ => ⟨S32x1, .f32⟩
  | .hbm, ⟨45, _⟩ => ⟨S32x1x1, .f32⟩
  | .hbm, ⟨46, _⟩ => ⟨S32x2048x1, .f32⟩
  | .hbm, ⟨47, _⟩ => ⟨S32x2048x1, .f32⟩
  | .hbm, ⟨48, _⟩ => ⟨S32x1x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x2048x1024_0_1_2 : S1x1x1024.BroadcastsInDim S32x2048x1024 (![0, 1, 2] : Fin 3 → Fin S32x2048x1024.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  bcast_S2048_S1x2048x1_1 : S2048.BroadcastsInDim S1x2048x1 (![1] : Fin 1 → Fin S1x2048x1.rank)
  bcast_S32_S32x1x1_0 : S32.BroadcastsInDim S32x1x1 (![0] : Fin 1 → Fin S32x1x1.rank)
  bcast_S1x2048x1_S32x2048x1_0_1_2 : S1x2048x1.BroadcastsInDim S32x2048x1 (![0, 1, 2] : Fin 3 → Fin S32x2048x1.rank)
  bcast_S32x1x1_S32x2048x1_0_1_2 : S32x1x1.BroadcastsInDim S32x2048x1 (![0, 1, 2] : Fin 3 → Fin S32x2048x1.rank)
  bcast_S_S32x2048x1 : S_.BroadcastsInDim S32x2048x1 (![] : Fin 0 → Fin S32x2048x1.rank)
  reducesTo_S32x2048x1_S32x1_d1 : S32x2048x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  dot_S32x2048x1024_S1024x1024_S32x2048x1024_2_1_01_0_n_n_wf : DotDims.WF S32x2048x1024 S1024x1024 S32x2048x1024 [2] [1] [0, 1] [0] [] []
  dot_S32x2048x1024_S1x1024_S32x2048x1_2_1_01_0_n_n_wf : DotDims.WF S32x2048x1024 S1x1024 S32x2048x1 [2] [1] [0, 1] [0] [] []
  dot_S32x2048x1_S32x2048x1024_S32x1x1024_1_1_2_2_0_0_wf : DotDims.WF S32x2048x1 S32x2048x1024 S32x1x1024 [1] [1] [2] [2] [0] [0]

variable [Facts₀]

def dot_S32x2048x1024_S1024x1024_S32x2048x1024_2_1_01_0_n_n : DotDims S32x2048x1024 S1024x1024 S32x2048x1024 where
  lhsContracting := [2]
  rhsContracting := [1]
  lhsNonContracting := [0, 1]
  rhsNonContracting := [0]
  lhsBatch := []
  rhsBatch := []
  wf := dot_S32x2048x1024_S1024x1024_S32x2048x1024_2_1_01_0_n_n_wf
def dot_S32x2048x1024_S1x1024_S32x2048x1_2_1_01_0_n_n : DotDims S32x2048x1024 S1x1024 S32x2048x1 where
  lhsContracting := [2]
  rhsContracting := [1]
  lhsNonContracting := [0, 1]
  rhsNonContracting := [0]
  lhsBatch := []
  rhsBatch := []
  wf := dot_S32x2048x1024_S1x1024_S32x2048x1_2_1_01_0_n_n_wf
def dot_S32x2048x1_S32x2048x1024_S32x1x1024_1_1_2_2_0_0 : DotDims S32x2048x1 S32x2048x1024 S32x1x1024 where
  lhsContracting := [1]
  rhsContracting := [1]
  lhsNonContracting := [2]
  rhsNonContracting := [2]
  lhsBatch := [0]
  rhsBatch := [0]
  wf := dot_S32x2048x1_S32x2048x1024_S32x1x1024_1_1_2_2_0_0_wf

class Facts : Prop extends Facts₀ where

variable [Facts]
-- ==== Proof.KernelStep.lean ====
/-
  One grid point of the attention kernel as a function of values.

  At grid point (b, j) the body reads the tile's query, key and value blocks, the stacked projection
  weights, the summed bias, the score weights and bias, the word `lengths[b]`, and the running state
  (maximum `m`, sum `l`, weighted sum `acc`, weight row `w`).  It leaves the new maximum, the rescaled
  sum plus the tile's exponentials, the rescaled weighted sum plus the tile's contribution, and the
  rescaled row with the tile's own 512 entries replaced by the tile's exponentials.
-/
import proofs.«416368_j68539088109695_2_alg».proof.Proof.Gen.KernelIdeal.Frame.Runs

noncomputable section

namespace Cert.KernelIdeal.Step

open Cert.KernelIdeal Cert.KernelIdeal.Gen Idealize.ShloMosaic Idealize.ShloMosaic.TcCoe Idealize.SL.Sem

variable {F : FTy → Type} [FloatOps F]

/-- The word `lengths[b]` the body loads from the prefetched table at grid point `i`. -/
def lenWord (c : Dev nD) (i : grid0.Coords) (xt0 : TbBuf0 (F := F) c tbM0_0) : Elt F .i32 :=
  View.readAt (Elt F) tbM0_0.view (Rect.unit (s := S32) (k0_off1 i) S1.size (k0_off1_inb i)).toLoadRect xt0
    (Shape.Idx.first (numel1_S1.symm ▸ Nat.one_pos))

section

variable (i : grid0.Coords) (x0 x1 x2 : Vec F S1x512x1024 .f32) (x3 : Vec F S2048x1024 .bf16) (x4 : Vec F S1024 .f32)
  (x5 : Vec F S1x1024 .f32) (x6 : Vec F S1 .f32) (wd : Elt F .i32)

/-- The new running maximum, [1, 1]. -/
def stepM (m0 : Vec F S1x1 .f32) : Vec F S1x1 .f32 :=
  k0_pay2 (k0_pay13 (k0_pay10 x0 x1 x3 x4 x5 x6) (k0_pay11 i wd) m0)

/-- The new running sum, [1, 1]. -/
def stepL (m0 l0 : Vec F S1x1 .f32) : Vec F S1x1 .f32 :=
  k0_pay17 (k0_pay10 x0 x1 x3 x4 x5 x6) (k0_pay11 i wd) m0 l0

/-- The new running weighted sum, [1, 1024]. -/
def stepA (m0 : Vec F S1x1 .f32) (a0 : Vec F S1x1024 .f32) : Vec F S1x1024 .f32 :=
  k0_pay18 (k0_pay10 x0 x1 x3 x4 x5 x6) (k0_pay11 i wd) m0 x2 a0

/-- The coordinate of row-position `y` inside the tile that starts at `512 · i₁`. -/
def sliceIdx (y : S1x1x2048.Idx) (h : 512 * (i 1).val ≤ (y 2).val ∧ (y 2).val < 512 * (i 1).val + 512) : S1x1x512.Idx :=
  fun a => match a with
    | ⟨0, _⟩ => ⟨0, Nat.one_pos⟩
    | ⟨1, _⟩ => ⟨0, Nat.one_pos⟩
    | ⟨2, _⟩ => ⟨(y 2).val - 512 * (i 1).val, by show _ < 512; omega⟩

/-- The new weight row, [1, 1, 2048]: the tile's entries are the tile's exponentials, the others the old row rescaled. -/
def stepW (m0 : Vec F S1x1 .f32) (w0 : Vec F S1x1x2048 .f32) : Vec F S1x1x2048 .f32 :=
  fun y => if h : 512 * (i 1).val ≤ (y 2).val ∧ (y 2).val < 512 * (i 1).val + 512 then
      k0_pay1 (k0_pay16 (k0_pay10 x0 x1 x3 x4 x5 x6) (k0_pay11 i wd) m0) (sliceIdx i y h)
    else k0_pay19 (k0_pay10 x0 x1 x3 x4 x5 x6) (k0_pay11 i wd) m0 w0 y

end

end Cert.KernelIdeal.Step

end
-- ==== Proof.PiecesA.lean ====
/-
  What the body leaves at a grid point of the first tile of a batch (the state is reset first), read as values: each buffer's final contents is the
  value of its last covering store, and a load that follows a store into the same buffer reads that store's value.
-/
import proofs.«416368_j68539088109695_2_alg».proof.Proof.KernelStep
import proofs.«416368_j68539088109695_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen Cert.KernelIdeal.Step

variable {F : FTy → Type} [FloatOps F]

/-- The all-zero offsets, at ranks one to three. -/
private theorem hz1 : (![0] : Fin 1 → Nat) = fun _ => 0 := funext fun a => by fin_cases a <;> rfl
private theorem hz2 : (![0, 0] : Fin 2 → Nat) = fun _ => 0 := funext fun a => by fin_cases a <;> rfl
private theorem hz3 : (![0, 0, 0] : Fin 3 → Nat) = fun _ => 0 := funext fun a => by fin_cases a <;> rfl

/-- The tile's offset in the weight row: zero on the two unit axes, `512 · i₁` on the last. -/
private theorem off2_zero (i : grid0.Coords) : k0_off2 i 0 = 0 := by rw [k0_off2_eq]; rfl
private theorem off2_one (i : grid0.Coords) : k0_off2 i 1 = 0 := by rw [k0_off2_eq]; rfl
private theorem off2_two (i : grid0.Coords) : k0_off2 i 2 = 512 * (i 1).val := by rw [k0_off2_eq]; rfl

/-- A row position inside the tile is the tile's own coordinate `sliceIdx` placed at the tile's offset. -/
private theorem emb_sliceIdx (i : grid0.Coords) (y : S1x1x2048.Idx)
    (h : 512 * (i 1).val ≤ (y 2).val ∧ (y 2).val < 512 * (i 1).val + 512) :
    (Rect.unit (s := S1x1x2048) (k0_off2 i) S1x1x512.size (k0_off2_inb i)).emb (sliceIdx i y h) = y := by
  funext a
  apply Fin.ext
  rw [Rect.emb_apply]
  simp only [Rect.off_unit, Rect.stride_unit, Nat.one_mul]
  have h0 : (y 0).val < 1 := (y 0).isLt
  have h1 : (y 1).val < 1 := (y 1).isLt
  fin_cases a
  · show k0_off2 i 0 + 0 = (y 0).val
    rw [off2_zero]; omega
  · show k0_off2 i 1 + 0 = (y 1).val
    rw [off2_one]; omega
  · show k0_off2 i 2 + ((y 2).val - 512 * (i 1).val) = (y 2).val
    rw [off2_two]; omega

/-- A row position outside the tile's 512 entries is not in the tile's rectangle. -/
private theorem not_mem_slice (i : grid0.Coords) (y : S1x1x2048.Idx)
    (h : ¬(512 * (i 1).val ≤ (y 2).val ∧ (y 2).val < 512 * (i 1).val + 512)) :
    y ∉ (Rect.unit (s := S1x1x2048) (k0_off2 i) S1x1x512.size (k0_off2_inb i)).set := by
  rw [Rect.mem_set_unit]
  intro hm
  have h2 := hm 2
  rw [off2_two] at h2
  exact h h2

/-- The row after a whole-row store `w2` and then the tile's store `w1`: the tile's entries read `w1`, the others `w2`. -/
private theorem canon_row (i : grid0.Coords) (w1 : Vec F S1x1x512 .f32) (w2 : Vec F S1x1x2048 .f32)
    (L : List (View.Piece (Elt F) S1x1x2048 .f32)) (y : S1x1x2048.Idx) :
    View.canon ((⟨Rect.unit (s := S1x1x2048) (k0_off2 i) S1x1x512.size (k0_off2_inb i), w1⟩ : View.Piece (Elt F) S1x1x2048 .f32)
        :: ⟨Rect.unit (s := S1x1x2048) ![0, 0, 0] S1x1x2048.size inb_S1x1x2048_S1x1x2048_0_0_0, w2⟩ :: L) y
      = if h : 512 * (i 1).val ≤ (y 2).val ∧ (y 2).val < 512 * (i 1).val + 512 then w1 (sliceIdx i y h) else w2 y := by
  split
  · rename_i h
    have e := View.canon_cons_emb (Val := Elt F) (Rect.unit (s := S1x1x2048) (k0_off2 i) S1x1x512.size (k0_off2_inb i)) w1
      (⟨Rect.unit (s := S1x1x2048) ![0, 0, 0] S1x1x2048.size inb_S1x1x2048_S1x1x2048_0_0_0, w2⟩ :: L) (sliceIdx i y h)
    rw [emb_sliceIdx] at e
    exact e
  · rename_i h
    rw [View.canon_cons_of_not_mem
      (⟨Rect.unit (s := S1x1x2048) (k0_off2 i) S1x1x512.size (k0_off2_inb i), w1⟩ : View.Piece (Elt F) S1x1x2048 .f32)
      (⟨Rect.unit (s := S1x1x2048) ![0, 0, 0] S1x1x2048.size inb_S1x1x2048_S1x1x2048_0_0_0, w2⟩ :: L) (not_mem_slice i y h),
      View.canon_cons_unit_zero (S := S1x1x2048) hz3]

/-- The new maximum, from the reset value −10⁹. -/
theorem sout_A_0 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S2048x1024 .bf16) (harg6 : arg6.IsWhole) (arg7 : Memref sig .tc .vmem S1024 .f32) (harg7 : arg7.IsWhole) (arg8 : Memref sig .tc .vmem S1x1024 .f32) (harg8 : arg8.IsWhole) (arg9 : Memref sig .tc .vmem S1 .f32) (harg9 : arg9.IsWhole) (arg10 : Memref sig .tc .vmem S1x1x1024 .f32) (harg10 : arg10.IsWhole) (arg11 : Memref sig .tc .vmem S1x1x2048 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : cond0_0 i) (hc1 : ¬cond0_1 i)
    (x0 : Vec F S1x512x1024 .f32) (x1 : Vec F S1x512x1024 .f32) (x2 : Vec F S1x512x1024 .f32) (x3 : Vec F S2048x1024 .bf16) (x4 : Vec F S1024 .f32) (x5 : Vec F S1x1024 .f32) (x6 : Vec F S1 .f32) (xt0 : TbBuf0 (F := F) c tbM0_0) :
    sout0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xt0 = stepM i x0 x1 x3 x4 x5 x6 (lenWord c i xt0) (k0_pay7 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xt0)]
  unfold kernelRun0_A
  dsimp only
  sl_unfold_run_names
  rw [View.canon_cons_unit_zero (S := S1x1) hz2]
  simp only [View.readAt_eq_ld, harg3.read_unread, harg4.read_unread, harg5.read_unread, harg6.read_unread, harg7.read_unread, harg8.read_unread, harg9.read_unread, View.ld_unit_zero (S := S1x512x1024) hz3, View.ld_unit_zero (S := S2048x1024) hz2, View.ld_unit_zero (S := S1024) hz1, View.ld_unit_zero (S := S1x1024) hz2, View.ld_unit_zero (S := S1) hz1, View.readCov_unit_zero (S := S1x1) _ hz2, View.readCov_unit_zero (S := S1x1024) _ hz2, View.readCov_unit_zero (S := S1x1x2048) _ hz3]
  rfl

/-- The new sum, from zero. -/
theorem sout_A_1 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S2048x1024 .bf16) (harg6 : arg6.IsWhole) (arg7 : Memref sig .tc .vmem S1024 .f32) (harg7 : arg7.IsWhole) (arg8 : Memref sig .tc .vmem S1x1024 .f32) (harg8 : arg8.IsWhole) (arg9 : Memref sig .tc .vmem S1 .f32) (harg9 : arg9.IsWhole) (arg10 : Memref sig .tc .vmem S1x1x1024 .f32) (harg10 : arg10.IsWhole) (arg11 : Memref sig .tc .vmem S1x1x2048 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : cond0_0 i) (hc1 : ¬cond0_1 i)
    (x0 : Vec F S1x512x1024 .f32) (x1 : Vec F S1x512x1024 .f32) (x2 : Vec F S1x512x1024 .f32) (x3 : Vec F S2048x1024 .bf16) (x4 : Vec F S1024 .f32) (x5 : Vec F S1x1024 .f32) (x6 : Vec F S1 .f32) (xt0 : TbBuf0 (F := F) c tbM0_0) :
    sout0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xt0 = stepL i x0 x1 x3 x4 x5 x6 (lenWord c i xt0) (k0_pay7 (F := F)) (k0_pay8 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xt0)]
  unfold kernelRun0_A
  dsimp only
  sl_unfold_run_names
  rw [View.canon_cons_unit_zero (S := S1x1) hz2]
  simp only [View.readAt_eq_ld, harg3.read_unread, harg4.read_unread, harg5.read_unread, harg6.read_unread, harg7.read_unread, harg8.read_unread, harg9.read_unread, View.ld_unit_zero (S := S1x512x1024) hz3, View.ld_unit_zero (S := S2048x1024) hz2, View.ld_unit_zero (S := S1024) hz1, View.ld_unit_zero (S := S1x1024) hz2, View.ld_unit_zero (S := S1) hz1, View.readCov_unit_zero (S := S1x1) _ hz2, View.readCov_unit_zero (S := S1x1024) _ hz2, View.readCov_unit_zero (S := S1x1x2048) _ hz3]
  rfl

/-- The new weighted sum, from zero. -/
theorem sout_A_2 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S2048x1024 .bf16) (harg6 : arg6.IsWhole) (arg7 : Memref sig .tc .vmem S1024 .f32) (harg7 : arg7.IsWhole) (arg8 : Memref sig .tc .vmem S1x1024 .f32) (harg8 : arg8.IsWhole) (arg9 : Memref sig .tc .vmem S1 .f32) (harg9 : arg9.IsWhole) (arg10 : Memref sig .tc .vmem S1x1x1024 .f32) (harg10 : arg10.IsWhole) (arg11 : Memref sig .tc .vmem S1x1x2048 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : cond0_0 i) (hc1 : ¬cond0_1 i)
    (x0 : Vec F S1x512x1024 .f32) (x1 : Vec F S1x512x1024 .f32) (x2 : Vec F S1x512x1024 .f32) (x3 : Vec F S2048x1024 .bf16) (x4 : Vec F S1024 .f32) (x5 : Vec F S1x1024 .f32) (x6 : Vec F S1 .f32) (xt0 : TbBuf0 (F := F) c tbM0_0) :
    sout0_A_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xt0 = stepA i x0 x1 x2 x3 x4 x5 x6 (lenWord c i xt0) (k0_pay7 (F := F)) (k0_pay9 (F := F)) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xt0)]
  unfold kernelRun0_A
  dsimp only
  sl_unfold_run_names
  rw [View.canon_cons_unit_zero (S := S1x1024) hz2]
  simp only [View.readAt_eq_ld, harg3.read_unread, harg4.read_unread, harg5.read_unread, harg6.read_unread, harg7.read_unread, harg8.read_unread, harg9.read_unread, View.ld_unit_zero (S := S1x512x1024) hz3, View.ld_unit_zero (S := S2048x1024) hz2, View.ld_unit_zero (S := S1024) hz1, View.ld_unit_zero (S := S1x1024) hz2, View.ld_unit_zero (S := S1) hz1, View.readCov_unit_zero (S := S1x1) _ hz2, View.readCov_unit_zero (S := S1x1024) _ hz2, View.readCov_unit_zero (S := S1x1x2048) _ hz3]
  rfl

/-- The new weight row, from the zero row. -/
theorem out_A_8 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S2048x1024 .bf16) (harg6 : arg6.IsWhole) (arg7 : Memref sig .tc .vmem S1024 .f32) (harg7 : arg7.IsWhole) (arg8 : Memref sig .tc .vmem S1x1024 .f32) (harg8 : arg8.IsWhole) (arg9 : Memref sig .tc .vmem S1 .f32) (harg9 : arg9.IsWhole) (arg10 : Memref sig .tc .vmem S1x1x1024 .f32) (harg10 : arg10.IsWhole) (arg11 : Memref sig .tc .vmem S1x1x2048 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : cond0_0 i) (hc1 : ¬cond0_1 i)
    (x0 : Vec F S1x512x1024 .f32) (x1 : Vec F S1x512x1024 .f32) (x2 : Vec F S1x512x1024 .f32) (x3 : Vec F S2048x1024 .bf16) (x4 : Vec F S1024 .f32) (x5 : Vec F S1x1024 .f32) (x6 : Vec F S1 .f32) (xt0 : TbBuf0 (F := F) c tbM0_0) :
    out0_A_8 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xt0 = stepW i x0 x1 x3 x4 x5 x6 (lenWord c i xt0) (k0_pay7 (F := F)) (k0_pay6 (F := F)) := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xt0)]
  unfold kernelRun0_A
  dsimp only
  sl_unfold_run_names
  simp only [View.readAt_eq_ld, harg3.read_unread, harg4.read_unread, harg5.read_unread, harg6.read_unread, harg7.read_unread, harg8.read_unread, harg9.read_unread, View.ld_unit_zero (S := S1x512x1024) hz3, View.ld_unit_zero (S := S2048x1024) hz2, View.ld_unit_zero (S := S1024) hz1, View.ld_unit_zero (S := S1x1024) hz2, View.ld_unit_zero (S := S1) hz1, View.readCov_unit_zero (S := S1x1) _ hz2, View.readCov_unit_zero (S := S1x1024) _ hz2, View.readCov_unit_zero (S := S1x1x2048) _ hz3]
  funext y
  refine (canon_row i _ _ _ y).trans ?_
  rfl

end Cert.KernelIdeal.Pieces

end
-- ==== Proof.PiecesB.lean ====
/-
  What the body leaves at a grid point of the middle tiles of a batch (the state is carried from the tile before), read as values: each buffer's final contents is the
  value of its last covering store, and a load that follows a store into the same buffer reads that store's value.
-/
import proofs.«416368_j68539088109695_2_alg».proof.Proof.KernelStep
import proofs.«416368_j68539088109695_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen Cert.KernelIdeal.Step

variable {F : FTy → Type} [FloatOps F]

/-- The zero offsets of a whole-buffer access at rank 1, as the constant function. -/
private theorem hz1 : (![0] : Fin 1 → Nat) = fun _ => 0 := funext fun a => by fin_cases a <;> rfl
/-- The same at rank 2. -/
private theorem hz2 : (![0, 0] : Fin 2 → Nat) = fun _ => 0 := funext fun a => by fin_cases a <;> rfl
/-- The same at rank 3. -/
private theorem hz3 : (![0, 0, 0] : Fin 3 → Nat) = fun _ => 0 := funext fun a => by fin_cases a <;> rfl

/-- The new maximum. -/
theorem sout_B_0 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S2048x1024 .bf16) (harg6 : arg6.IsWhole) (arg7 : Memref sig .tc .vmem S1024 .f32) (harg7 : arg7.IsWhole) (arg8 : Memref sig .tc .vmem S1x1024 .f32) (harg8 : arg8.IsWhole) (arg9 : Memref sig .tc .vmem S1 .f32) (harg9 : arg9.IsWhole) (arg10 : Memref sig .tc .vmem S1x1x1024 .f32) (harg10 : arg10.IsWhole) (arg11 : Memref sig .tc .vmem S1x1x2048 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : ¬cond0_0 i) (hc1 : ¬cond0_1 i)
    (x0 : Vec F S1x512x1024 .f32) (x1 : Vec F S1x512x1024 .f32) (x2 : Vec F S1x512x1024 .f32) (x3 : Vec F S2048x1024 .bf16) (x4 : Vec F S1024 .f32) (x5 : Vec F S1x1024 .f32) (x6 : Vec F S1 .f32) (xt0 : TbBuf0 (F := F) c tbM0_0) (xo8 : Vec F S1x1x2048 .f32) (xs0 : Vec F S1x1 .f32) (xs1 : Vec F S1x1 .f32) (xs2 : Vec F S1x1024 .f32) :
    sout0_B_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xt0 xo8 xs0 xs1 xs2 = stepM i x0 x1 x3 x4 x5 x6 (lenWord c i xt0) xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xt0 xo8 xs0 xs1 xs2)]
  unfold kernelRun0_B
  dsimp only
  sl_unfold_run_names
  rw [View.canon_unit_zero (S := S1x1) hz2]
  unfold stepM lenWord
  simp only [View.readAt_eq_ld, harg3.read_unread, harg4.read_unread, harg5.read_unread, harg6.read_unread, harg7.read_unread, harg8.read_unread, harg9.read_unread, harg11.read_unread, harg12.read_unread, harg13.read_unread, harg14.read_unread,
    View.ld_unit_zero (S := S1x512x1024) hz3, View.ld_unit_zero (S := S2048x1024) hz2, View.ld_unit_zero (S := S1024) hz1, View.ld_unit_zero (S := S1x1024) hz2, View.ld_unit_zero (S := S1) hz1, View.ld_unit_zero (S := S1x1) hz2, View.ld_unit_zero (S := S1x1x2048) hz3]

/-- The new sum. -/
theorem sout_B_1 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S2048x1024 .bf16) (harg6 : arg6.IsWhole) (arg7 : Memref sig .tc .vmem S1024 .f32) (harg7 : arg7.IsWhole) (arg8 : Memref sig .tc .vmem S1x1024 .f32) (harg8 : arg8.IsWhole) (arg9 : Memref sig .tc .vmem S1 .f32) (harg9 : arg9.IsWhole) (arg10 : Memref sig .tc .vmem S1x1x1024 .f32) (harg10 : arg10.IsWhole) (arg11 : Memref sig .tc .vmem S1x1x2048 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : ¬cond0_0 i) (hc1 : ¬cond0_1 i)
    (x0 : Vec F S1x512x1024 .f32) (x1 : Vec F S1x512x1024 .f32) (x2 : Vec F S1x512x1024 .f32) (x3 : Vec F S2048x1024 .bf16) (x4 : Vec F S1024 .f32) (x5 : Vec F S1x1024 .f32) (x6 : Vec F S1 .f32) (xt0 : TbBuf0 (F := F) c tbM0_0) (xo8 : Vec F S1x1x2048 .f32) (xs0 : Vec F S1x1 .f32) (xs1 : Vec F S1x1 .f32) (xs2 : Vec F S1x1024 .f32) :
    sout0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xt0 xo8 xs0 xs1 xs2 = stepL i x0 x1 x3 x4 x5 x6 (lenWord c i xt0) xs0 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xt0 xo8 xs0 xs1 xs2)]
  unfold kernelRun0_B
  dsimp only
  sl_unfold_run_names
  rw [View.canon_unit_zero (S := S1x1) hz2]
  unfold stepL lenWord
  simp only [View.readAt_eq_ld, harg3.read_unread, harg4.read_unread, harg5.read_unread, harg6.read_unread, harg7.read_unread, harg8.read_unread, harg9.read_unread, harg11.read_unread, harg12.read_unread, harg13.read_unread, harg14.read_unread,
    View.ld_unit_zero (S := S1x512x1024) hz3, View.ld_unit_zero (S := S2048x1024) hz2, View.ld_unit_zero (S := S1024) hz1, View.ld_unit_zero (S := S1x1024) hz2, View.ld_unit_zero (S := S1) hz1, View.ld_unit_zero (S := S1x1) hz2, View.ld_unit_zero (S := S1x1x2048) hz3]

/-- The new weighted sum. -/
theorem sout_B_2 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S2048x1024 .bf16) (harg6 : arg6.IsWhole) (arg7 : Memref sig .tc .vmem S1024 .f32) (harg7 : arg7.IsWhole) (arg8 : Memref sig .tc .vmem S1x1024 .f32) (harg8 : arg8.IsWhole) (arg9 : Memref sig .tc .vmem S1 .f32) (harg9 : arg9.IsWhole) (arg10 : Memref sig .tc .vmem S1x1x1024 .f32) (harg10 : arg10.IsWhole) (arg11 : Memref sig .tc .vmem S1x1x2048 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : ¬cond0_0 i) (hc1 : ¬cond0_1 i)
    (x0 : Vec F S1x512x1024 .f32) (x1 : Vec F S1x512x1024 .f32) (x2 : Vec F S1x512x1024 .f32) (x3 : Vec F S2048x1024 .bf16) (x4 : Vec F S1024 .f32) (x5 : Vec F S1x1024 .f32) (x6 : Vec F S1 .f32) (xt0 : TbBuf0 (F := F) c tbM0_0) (xo8 : Vec F S1x1x2048 .f32) (xs0 : Vec F S1x1 .f32) (xs1 : Vec F S1x1 .f32) (xs2 : Vec F S1x1024 .f32) :
    sout0_B_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xt0 xo8 xs0 xs1 xs2 = stepA i x0 x1 x2 x3 x4 x5 x6 (lenWord c i xt0) xs0 xs2 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xt0 xo8 xs0 xs1 xs2)]
  unfold kernelRun0_B
  dsimp only
  sl_unfold_run_names
  rw [View.canon_unit_zero (S := S1x1024) hz2]
  unfold stepA lenWord
  simp only [View.readAt_eq_ld, harg3.read_unread, harg4.read_unread, harg5.read_unread, harg6.read_unread, harg7.read_unread, harg8.read_unread, harg9.read_unread, harg11.read_unread, harg12.read_unread, harg13.read_unread, harg14.read_unread,
    View.ld_unit_zero (S := S1x512x1024) hz3, View.ld_unit_zero (S := S2048x1024) hz2, View.ld_unit_zero (S := S1024) hz1, View.ld_unit_zero (S := S1x1024) hz2, View.ld_unit_zero (S := S1) hz1, View.ld_unit_zero (S := S1x1) hz2, View.ld_unit_zero (S := S1x1x2048) hz3]

/-- The tile's rectangle of the weight row, placed at a position of the tile, is that position's row coordinate. -/
private theorem emb_sliceIdx (i : grid0.Coords) (y : S1x1x2048.Idx)
    (h : 512 * (i 1).val ≤ (y 2).val ∧ (y 2).val < 512 * (i 1).val + 512) :
    (Rect.unit (s := S1x1x2048) (k0_off2 i) S1x1x512.size (k0_off2_inb i)).emb (sliceIdx i y h) = y := by
  funext a
  apply Fin.ext
  rw [Rect.emb_apply]
  show k0_off2 i a + 1 * (sliceIdx i y h a).val = (y a).val
  rw [k0_off2_eq]
  match a with
  | ⟨0, _⟩ =>
    have h0 : (y 0).val < 1 := (y 0).isLt
    show 0 + 1 * 0 = (y 0).val
    omega
  | ⟨1, _⟩ =>
    have h1 : (y 1).val < 1 := (y 1).isLt
    show 0 + 1 * 0 = (y 1).val
    omega
  | ⟨2, _⟩ =>
    show 512 * (i 1).val + 1 * ((y 2).val - 512 * (i 1).val) = (y 2).val
    omega

/-- Inside the tile, the row holds the last store's payload at the position within the tile. -/
private theorem canon_slice_inside (i : grid0.Coords) (w : S1x1x512.Idx → Elt F .f32)
    (L : List (View.Piece (Elt F) S1x1x2048 .f32)) (y : S1x1x2048.Idx)
    (h : 512 * (i 1).val ≤ (y 2).val ∧ (y 2).val < 512 * (i 1).val + 512) :
    View.canon ((⟨Rect.unit (s := S1x1x2048) (k0_off2 i) S1x1x512.size (k0_off2_inb i), w⟩ : View.Piece (Elt F) S1x1x2048 .f32) :: L) y
      = w (sliceIdx i y h) := by
  have e := View.canon_cons_emb (Val := Elt F) (Rect.unit (s := S1x1x2048) (k0_off2 i) S1x1x512.size (k0_off2_inb i)) w L (sliceIdx i y h)
  rw [emb_sliceIdx i y h] at e
  exact e

/-- Outside the tile, the row holds what the earlier stores left. -/
private theorem canon_slice_outside (i : grid0.Coords) (w : S1x1x512.Idx → Elt F .f32)
    (L : List (View.Piece (Elt F) S1x1x2048 .f32)) (y : S1x1x2048.Idx)
    (h : ¬(512 * (i 1).val ≤ (y 2).val ∧ (y 2).val < 512 * (i 1).val + 512)) :
    View.canon ((⟨Rect.unit (s := S1x1x2048) (k0_off2 i) S1x1x512.size (k0_off2_inb i), w⟩ : View.Piece (Elt F) S1x1x2048 .f32) :: L) y
      = View.canon L y := by
  refine View.canon_cons_of_not_mem _ L ?_
  show y ∉ (Rect.unit (s := S1x1x2048) (k0_off2 i) S1x1x512.size (k0_off2_inb i)).set
  rw [Rect.mem_set_unit, k0_off2_eq]
  intro hall
  exact h (hall 2)

/-- The new weight row. -/
theorem out_B_8 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S2048x1024 .bf16) (harg6 : arg6.IsWhole) (arg7 : Memref sig .tc .vmem S1024 .f32) (harg7 : arg7.IsWhole) (arg8 : Memref sig .tc .vmem S1x1024 .f32) (harg8 : arg8.IsWhole) (arg9 : Memref sig .tc .vmem S1 .f32) (harg9 : arg9.IsWhole) (arg10 : Memref sig .tc .vmem S1x1x1024 .f32) (harg10 : arg10.IsWhole) (arg11 : Memref sig .tc .vmem S1x1x2048 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : ¬cond0_0 i) (hc1 : ¬cond0_1 i)
    (x0 : Vec F S1x512x1024 .f32) (x1 : Vec F S1x512x1024 .f32) (x2 : Vec F S1x512x1024 .f32) (x3 : Vec F S2048x1024 .bf16) (x4 : Vec F S1024 .f32) (x5 : Vec F S1x1024 .f32) (x6 : Vec F S1 .f32) (xt0 : TbBuf0 (F := F) c tbM0_0) (xo8 : Vec F S1x1x2048 .f32) (xs0 : Vec F S1x1 .f32) (xs1 : Vec F S1x1 .f32) (xs2 : Vec F S1x1024 .f32) :
    out0_B_8 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xt0 xo8 xs0 xs1 xs2 = stepW i x0 x1 x3 x4 x5 x6 (lenWord c i xt0) xs0 xo8 := by
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xt0 xo8 xs0 xs1 xs2)]
  unfold kernelRun0_B
  dsimp only
  sl_unfold_run_names
  unfold lenWord
  simp only [View.readAt_eq_ld, harg3.read_unread, harg4.read_unread, harg5.read_unread, harg6.read_unread, harg7.read_unread, harg8.read_unread, harg9.read_unread, harg11.read_unread, harg12.read_unread, harg13.read_unread, harg14.read_unread,
    View.ld_unit_zero (S := S1x512x1024) hz3, View.ld_unit_zero (S := S2048x1024) hz2, View.ld_unit_zero (S := S1024) hz1, View.ld_unit_zero (S := S1x1024) hz2, View.ld_unit_zero (S := S1) hz1, View.ld_unit_zero (S := S1x1) hz2, View.ld_unit_zero (S := S1x1x2048) hz3]
  funext y
  unfold stepW
  dsimp only
  split
  · rename_i h
    exact canon_slice_inside i _ _ y h
  · rename_i h
    rw [canon_slice_outside i _ _ y h, View.canon_unit_zero (S := S1x1x2048) hz3]

end Cert.KernelIdeal.Pieces

end
-- ==== Proof.PiecesC.lean ====
/-
  What the body leaves at a grid point of the last tile of a batch (the step, then the division by the sum), read as values: each buffer's final contents is the
  value of its last covering store, and a load that follows a store into the same buffer reads that store's value.
-/
import proofs.«416368_j68539088109695_2_alg».proof.Proof.KernelStep
import proofs.«416368_j68539088109695_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen Cert.KernelIdeal.Step

variable {F : FTy → Type} [FloatOps F]

/-- The zero offsets of a rank-one, rank-two and rank-three buffer, spelt as literals. -/
private theorem hz1 : (![0] : Fin 1 → Nat) = fun _ => 0 := funext fun a => by fin_cases a <;> rfl
private theorem hz2 : (![0, 0] : Fin 2 → Nat) = fun _ => 0 := funext fun a => by fin_cases a <;> rfl
private theorem hz3 : (![0, 0, 0] : Fin 3 → Nat) = fun _ => 0 := funext fun a => by fin_cases a <;> rfl

/-- A load of a whole buffer, after any stores, reads what those stores leave. -/
private theorem readCov_whole {sg : RefSig} {κ : Kind} {sp : Space} {S : Shape} {e : EltTy} (v : View sg κ sp S e)
    (L : List (View.Piece (Elt F) S e)) {off : Fin S.rank → Nat} (h : off = fun _ => 0)
    (inb : ∀ a, off a + S.size a ≤ S.size a) :
    v.readCov L (Rect.unit off S.size inb).toLoadRect = View.canon L := by
  subst h
  rw [View.readCov_eq_canon']
  funext j
  show View.canon L ((Rect.whole S).emb j) = View.canon L j
  rw [Rect.emb_whole_apply]

/-- The tile's offsets in the weight row: zero on the two unit axes, `512 · i₁` along the row. -/
private theorem off2_zero (i : grid0.Coords) : k0_off2 i 0 = 0 := by rw [k0_off2_eq]; rfl
private theorem off2_one (i : grid0.Coords) : k0_off2 i 1 = 0 := by rw [k0_off2_eq]; rfl
private theorem off2_two (i : grid0.Coords) : k0_off2 i 2 = 512 * (i 1).val := by rw [k0_off2_eq]; rfl

/-- A row position lies in the tile's rectangle exactly when its last coordinate is among the tile's 512. -/
private theorem mem_tile (i : grid0.Coords) (inb : ∀ a, (k0_off2 i) a + S1x1x512.size a ≤ S1x1x2048.size a) (y : S1x1x2048.Idx) :
    y ∈ (Rect.unit (s := S1x1x2048) (k0_off2 i) S1x1x512.size inb).set ↔
      512 * (i 1).val ≤ (y 2).val ∧ (y 2).val < 512 * (i 1).val + 512 := by
  rw [Rect.mem_set_unit]
  have h0 : (y 0 : Nat) < 1 := (y 0).isLt
  have h1 : (y 1 : Nat) < 1 := (y 1).isLt
  constructor
  · intro h
    have h2 := h 2
    rw [off2_two] at h2
    exact h2
  · intro h a
    match a with
    | ⟨0, _⟩ =>
      show k0_off2 i 0 ≤ (y 0 : Nat) ∧ (y 0 : Nat) < k0_off2 i 0 + 1
      rw [off2_zero]; omega
    | ⟨1, _⟩ =>
      show k0_off2 i 1 ≤ (y 1 : Nat) ∧ (y 1 : Nat) < k0_off2 i 1 + 1
      rw [off2_one]; omega
    | ⟨2, _⟩ =>
      show k0_off2 i 2 ≤ (y 2 : Nat) ∧ (y 2 : Nat) < k0_off2 i 2 + 512
      rw [off2_two]; exact h

/-- The tile's rectangle places the tile coordinate of a row position back at that position. -/
private theorem emb_sliceIdx (i : grid0.Coords) (inb : ∀ a, (k0_off2 i) a + S1x1x512.size a ≤ S1x1x2048.size a) (y : S1x1x2048.Idx)
    (h : 512 * (i 1).val ≤ (y 2).val ∧ (y 2).val < 512 * (i 1).val + 512) :
    (Rect.unit (s := S1x1x2048) (k0_off2 i) S1x1x512.size inb).emb (sliceIdx i y h) = y := by
  have h0 : (y 0 : Nat) < 1 := (y 0).isLt
  have h1 : (y 1 : Nat) < 1 := (y 1).isLt
  funext a
  apply Fin.ext
  rw [Rect.emb_apply]
  match a with
  | ⟨0, _⟩ =>
    show k0_off2 i 0 + 1 * 0 = (y 0 : Nat)
    rw [off2_zero]; omega
  | ⟨1, _⟩ =>
    show k0_off2 i 1 + 1 * 0 = (y 1 : Nat)
    rw [off2_one]; omega
  | ⟨2, _⟩ =>
    show k0_off2 i 2 + 1 * ((y 2 : Nat) - 512 * (i 1).val) = (y 2 : Nat)
    rw [off2_two]; omega

/-- The row after the rescaled old row is stored whole and the tile's entries are stored over it: inside the tile
    the tile's entries, outside it the rescaled old row. -/
private theorem canon_row (i : grid0.Coords) (inb : ∀ a, (k0_off2 i) a + S1x1x512.size a ≤ S1x1x2048.size a)
    (inb0 : ∀ a, (![0, 0, 0] : Fin 3 → Nat) a + S1x1x2048.size a ≤ S1x1x2048.size a)
    (w : Vec F S1x1x512 .f32) (r : Vec F S1x1x2048 .f32) :
    View.canon (Val := Elt F) [⟨Rect.unit (s := S1x1x2048) (k0_off2 i) S1x1x512.size inb, w⟩,
        ⟨Rect.unit (s := S1x1x2048) ![0, 0, 0] S1x1x2048.size inb0, r⟩]
      = fun y => if h : 512 * (i 1).val ≤ (y 2).val ∧ (y 2).val < 512 * (i 1).val + 512 then w (sliceIdx i y h) else r y := by
  funext y
  split
  · rename_i h
    have e := View.canon_cons_emb (Val := Elt F) (Rect.unit (s := S1x1x2048) (k0_off2 i) S1x1x512.size inb) w
      [⟨Rect.unit (s := S1x1x2048) ![0, 0, 0] S1x1x2048.size inb0, r⟩] (sliceIdx i y h)
    rw [emb_sliceIdx] at e
    exact e
  · rename_i h
    rw [View.canon_cons_of_not_mem _ _ (by rw [mem_tile]; exact h), View.canon_unit_zero (S := S1x1x2048) hz3]

/-- The attended value: the new weighted sum times the reciprocal of the new sum. -/
theorem out_C_7 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S2048x1024 .bf16) (harg6 : arg6.IsWhole) (arg7 : Memref sig .tc .vmem S1024 .f32) (harg7 : arg7.IsWhole) (arg8 : Memref sig .tc .vmem S1x1024 .f32) (harg8 : arg8.IsWhole) (arg9 : Memref sig .tc .vmem S1 .f32) (harg9 : arg9.IsWhole) (arg10 : Memref sig .tc .vmem S1x1x1024 .f32) (harg10 : arg10.IsWhole) (arg11 : Memref sig .tc .vmem S1x1x2048 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : ¬cond0_0 i) (hc1 : cond0_1 i)
    (x0 : Vec F S1x512x1024 .f32) (x1 : Vec F S1x512x1024 .f32) (x2 : Vec F S1x512x1024 .f32) (x3 : Vec F S2048x1024 .bf16) (x4 : Vec F S1024 .f32) (x5 : Vec F S1x1024 .f32) (x6 : Vec F S1 .f32) (xt0 : TbBuf0 (F := F) c tbM0_0) (xo8 : Vec F S1x1x2048 .f32) (xs0 : Vec F S1x1 .f32) (xs1 : Vec F S1x1 .f32) (xs2 : Vec F S1x1024 .f32) :
    out0_C_7 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xt0 xo8 xs0 xs1 xs2 = k0_pay4 (stepL i x0 x1 x3 x4 x5 x6 (lenWord c i xt0) xs0 xs1) (stepA i x0 x1 x2 x3 x4 x5 x6 (lenWord c i xt0) xs0 xs2) := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xt0 xo8 xs0 xs1 xs2)]
  unfold kernelRun0_C
  dsimp only
  sl_unfold_run_names
  rw [View.canon_unit_zero (S := S1x1x1024) hz3, View.readCov_unit_zero (S := S1x1) _ hz2,
    View.readCov_unit_zero (S := S1x1024) _ hz2]
  simp only [View.readAt_eq_ld, harg3.read_unread, harg4.read_unread, harg5.read_unread, harg6.read_unread,
    harg7.read_unread, harg8.read_unread, harg9.read_unread, harg12.read_unread, harg13.read_unread, harg14.read_unread,
    View.ld_unit_zero (S := S1x512x1024) hz3, View.ld_unit_zero (S := S2048x1024) hz2, View.ld_unit_zero (S := S1024) hz1,
    View.ld_unit_zero (S := S1x1024) hz2, View.ld_unit_zero (S := S1) hz1, View.ld_unit_zero (S := S1x1) hz2]
  unfold stepL stepA lenWord
  rfl

/-- The weights: the new weight row times the reciprocal of the new sum. -/
theorem out_C_8 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S2048x1024 .bf16) (harg6 : arg6.IsWhole) (arg7 : Memref sig .tc .vmem S1024 .f32) (harg7 : arg7.IsWhole) (arg8 : Memref sig .tc .vmem S1x1024 .f32) (harg8 : arg8.IsWhole) (arg9 : Memref sig .tc .vmem S1 .f32) (harg9 : arg9.IsWhole) (arg10 : Memref sig .tc .vmem S1x1x1024 .f32) (harg10 : arg10.IsWhole) (arg11 : Memref sig .tc .vmem S1x1x2048 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1024 .f32) (harg14 : arg14.IsWhole) (hc0 : ¬cond0_0 i) (hc1 : cond0_1 i)
    (x0 : Vec F S1x512x1024 .f32) (x1 : Vec F S1x512x1024 .f32) (x2 : Vec F S1x512x1024 .f32) (x3 : Vec F S2048x1024 .bf16) (x4 : Vec F S1024 .f32) (x5 : Vec F S1x1024 .f32) (x6 : Vec F S1 .f32) (xt0 : TbBuf0 (F := F) c tbM0_0) (xo8 : Vec F S1x1x2048 .f32) (xs0 : Vec F S1x1 .f32) (xs1 : Vec F S1x1 .f32) (xs2 : Vec F S1x1024 .f32) :
    out0_C_8 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xt0 xo8 xs0 xs1 xs2 = k0_pay5 (stepL i x0 x1 x3 x4 x5 x6 (lenWord c i xt0) xs0 xs1) (stepW i x0 x1 x3 x4 x5 x6 (lenWord c i xt0) xs0 xo8) := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xt0 xo8 xs0 xs1 xs2)]
  unfold kernelRun0_C
  dsimp only
  sl_unfold_run_names
  rw [View.canon_cons_unit_zero (S := S1x1x2048) hz3, View.readCov_unit_zero (S := S1x1) _ hz2,
    readCov_whole (S := S1x1x2048) _ _ hz3, canon_row]
  simp only [View.readAt_eq_ld, harg3.read_unread, harg4.read_unread, harg6.read_unread,
    harg7.read_unread, harg8.read_unread, harg9.read_unread, harg11.read_unread, harg12.read_unread, harg13.read_unread,
    View.ld_unit_zero (S := S1x512x1024) hz3, View.ld_unit_zero (S := S2048x1024) hz2, View.ld_unit_zero (S := S1024) hz1,
    View.ld_unit_zero (S := S1x1024) hz2, View.ld_unit_zero (S := S1) hz1, View.ld_unit_zero (S := S1x1) hz2,
    View.ld_unit_zero (S := S1x1x2048) hz3]
  unfold stepL stepW lenWord
  rfl

end Cert.KernelIdeal.Pieces

end
-- ==== Proof.Spec.lean ====
/-
  The mathematics both programs compute, stated once over the argument arrays, index by index.

  For batch `b` and time step `t` the additive-attention score is
    raw b t = Σ_o tanh((Σ_h q[b,t,h]·Wq[o,h] + bq[o]) + (Σ_h k[b,t,h]·Wk[o,h] + bk[o])) · Wz[0,o] + bz[0],
  replaced by the sentinel −10⁹ where `t ≥ lengths[b]` (signed comparison of 32-bit words).
  The attention weights are the softmax of the scores over `t`, written as the quotient
  `exp(s − M) / (0 + Σ exp(s − M))` with `M` the maximum over `t`, and the attended value is
  `Σ_t w[b,t] · v[b,t,h]`.
-/
import Idealize.ShloMosaic.PureOps.Ideal
import Idealize.ShloMosaic.Lib.ValueIdx

noncomputable section

namespace Cert.Attn

open Idealize.ShloMosaic Idealize.ShloMosaic.ValueIdx

/-- The shapes of the ten arguments and the two results. -/
abbrev SQ : Shape := ⟨3, ![32, 2048, 1024]⟩
abbrev SLen : Shape := ⟨1, ![32]⟩
abbrev SW : Shape := ⟨2, ![1024, 1024]⟩
abbrev SB : Shape := ⟨1, ![1024]⟩
abbrev SWz : Shape := ⟨2, ![1, 1024]⟩
abbrev SBz : Shape := ⟨1, ![1]⟩
abbrev SOutV : Shape := ⟨3, ![32, 1, 1024]⟩
abbrev SOutW : Shape := ⟨3, ![32, 2048, 1]⟩

/-- The mask sentinel, the float −10⁹. -/
def neg : EReal := Ideal.ofBits .f32 0xCE6E6B28#32

section Score

variable (xq xk : SQ.Idx → EReal) (len : SLen.Idx → BitVec 32) (wq wk : SW.Idx → EReal) (bq bk : SB.Idx → EReal)
  (wz : SWz.Idx → EReal) (bz : SBz.Idx → EReal)

/-- The sum of the two projections at output feature `o`. -/
def proj (b : Fin 32) (t : Fin 2048) (o : Fin 1024) : EReal :=
  ((∑ h : Fin 1024, xq (ix3 b t h) * wq (ix2 o h)) + bq (ix1 o))
    + ((∑ h : Fin 1024, xk (ix3 b t h) * wk (ix2 o h)) + bk (ix1 o))

/-- The unmasked score. -/
def raw (b : Fin 32) (t : Fin 2048) : EReal :=
  (∑ o : Fin 1024, Ideal.tanh (proj xq xk wq wk bq bk b t o) * wz (ix2 0 o)) + bz (ix1 0)

/-- The mask bit: `t ≥ lengths[b]`, both read as signed 32-bit words. -/
def maskBit (b : Fin 32) (t : Fin 2048) : BitVec 1 :=
  Scalar.cmpi .sge (BitVec.ofNat 32 t.val) (len (ix1 b))

/-- The masked score. -/
def score (b : Fin 32) (t : Fin 2048) : EReal :=
  Scalar.select (maskBit len b t) neg (raw xq xk wq wk bq bk wz bz b t)

end Score

section Softmax

variable (s : Fin 32 → Fin 2048 → EReal) (xv : SQ.Idx → EReal)

/-- The maximum of a batch's scores, as the softmax computes it (a fold from −∞, joined once more with −∞). -/
def smax (b : Fin 32) : EReal := max ⊥ (Finset.univ.fold max ⊥ (fun t : Fin 2048 => s b t))

/-- The shifted exponentials. -/
def sexp (b : Fin 32) (t : Fin 2048) : EReal := Ideal.exp (s b t - smax s b)

/-- Their sum from zero. -/
def ssum (b : Fin 32) : EReal := 0 + ∑ t : Fin 2048, sexp s b t

/-- The attention weights. -/
def weight (b : Fin 32) (t : Fin 2048) : EReal := Ideal.div (sexp s b t) (ssum s b)

/-- The attended value. -/
def attended (b : Fin 32) (h : Fin 1024) : EReal := ∑ t : Fin 2048, weight s b t * xv (ix3 b t h)

end Softmax

/-- The first result, [32, 1, 1024]. -/
def outV (s : Fin 32 → Fin 2048 → EReal) (xv : SQ.Idx → EReal) : SOutV.Idx → EReal :=
  fun i => attended s xv (i 0) (i 2)

/-- The second result, [32, 2048, 1]. -/
def outW (s : Fin 32 → Fin 2048 → EReal) : SOutW.Idx → EReal :=
  fun i => weight s (i 0) (i 1)

end Cert.Attn

end
-- ==== Proof.Math.lean ====
/-
  The online softmax over four tiles of 512 time steps, as extended-real arithmetic on real data.

  A tile step rescales the running sum, the running weighted sum and the running weight row by
  `exp(m_old − m_new)` and adds the tile's own `exp(s − m_new)` terms.  Because
  `exp(a − b)·exp(b − c) = exp(a − c)`, after `j` tiles the state holds, for the current maximum `μ`,
  the partial sums `Σ_{u < 512 j} exp(s u − μ)` and `Σ_{u < 512 j} exp(s u − μ)·v u h` and the row
  `exp(s u − μ)` on the first `512 j` entries.  Dividing by the full sum cancels `exp(−μ)`, so the
  normalised result does not depend on which real `μ` was used and equals the plain softmax quotient.
-/
import proofs.«416368_j68539088109695_2_alg».proof.Proof.Spec

noncomputable section

namespace Cert.Attn

open Idealize.ShloMosaic Idealize.ShloMosaic.ValueIdx

/-- The sentinel is a real number. -/
theorem neg_real : ∃ r : ℝ, neg = (r : EReal) := by
  refine ⟨-1000000000, ?_⟩
  simp [neg, Ideal.ofBits, Ideal.ieee, -EReal.coe_mul, -EReal.coe_neg]
  norm_num

/-- The pattern of the float one is the extended real one. -/
theorem one_real : Ideal.ofBits .f32 0x3F800000#32 = ((1 : ℝ) : EReal) := by
  simp [Ideal.ofBits, Ideal.ieee, -EReal.coe_mul]
  norm_num

/-! ## Coercion of maxima and finite sums -/

/-- The coercion commutes with the binary maximum. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The coercion commutes with a finite sum. -/
theorem coe_sum {ι : Type} (t : Finset ι) (f : ι → ℝ) :
    ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

/-- A maximum folded from −∞ over a nonempty index type of real entries is real. -/
theorem fold_real {n : ℕ} (g : Fin (n + 1) → ℝ) :
    ∃ M : ℝ, Finset.univ.fold max (⊥ : EReal) (fun i => (g i : EReal)) = (M : EReal) := by
  have h1 : Finset.univ.fold max (⊥ : EReal) (fun i => (g i : EReal)) ≠ ⊤ := by
    apply ne_of_lt
    rw [Finset.fold_max_lt]
    exact ⟨bot_lt_top, fun i _ => EReal.coe_lt_top _⟩
  have h2 : Finset.univ.fold max (⊥ : EReal) (fun i => (g i : EReal)) ≠ ⊥ := by
    have h : ((g 0 : ℝ) : EReal) ≤ Finset.univ.fold max (⊥ : EReal) (fun i => (g i : EReal)) := by
      rw [Finset.le_fold_max]
      exact Or.inr ⟨0, Finset.mem_univ _, le_rfl⟩
    intro hb
    rw [hb] at h
    exact EReal.coe_ne_bot _ (le_bot_iff.mp h)
  exact ⟨_, (EReal.coe_toReal h1 h2).symm⟩

/-! ## One tile step on extended reals -/

section Step

variable (mold : EReal) (sc : Fin 512 → EReal)

/-- The tile's maximum, folded from −∞. -/
def tmax : EReal := Finset.univ.fold max ⊥ sc
/-- The new running maximum. -/
def mnew : EReal := max mold (tmax sc)
/-- The correction factor `exp(m_old − m_new)`. -/
def corr : EReal := Ideal.exp (mold - mnew mold sc)
/-- The tile's shifted exponentials. -/
def pexp (r : Fin 512) : EReal := Ideal.exp (sc r - mnew mold sc)

end Step

/-- The running state: maximum, sum, weighted sum per feature, weight row. -/
structure TileState where
  m : EReal
  l : EReal
  acc : Fin 1024 → EReal
  w : Fin 2048 → EReal

/-- The state the first tile of a batch starts from. -/
def reset : TileState := ⟨neg, 0, fun _ => 0, fun _ => 0⟩

/-- The position of row `r` of tile `j`. -/
def tilePos (j : Fin 4) (r : Fin 512) : Fin 2048 := ⟨512 * j.val + r.val, by have := j.isLt; have := r.isLt; omega⟩

/-- One tile step. -/
def step (j : Fin 4) (sc : Fin 512 → EReal) (vt : Fin 512 → Fin 1024 → EReal) (st : TileState) : TileState where
  m := mnew st.m sc
  l := corr st.m sc * st.l + ∑ r : Fin 512, pexp st.m sc r
  acc := fun h => corr st.m sc * st.acc h + ∑ r : Fin 512, pexp st.m sc r * vt r h
  w := fun u => if hu : 512 * j.val ≤ u.val ∧ u.val < 512 * (j.val + 1) then
      pexp st.m sc ⟨u.val - 512 * j.val, by omega⟩ else st.w u * corr st.m sc

/-- The final normalisation by `1 / l`. -/
def finishV (st : TileState) (h : Fin 1024) : EReal := st.acc h * Ideal.div (Ideal.ofBits .f32 0x3F800000#32) st.l
def finishW (st : TileState) (u : Fin 2048) : EReal := st.w u * Ideal.div (Ideal.ofBits .f32 0x3F800000#32) st.l

/-- The partial sum over the first `n` time steps. -/
def psum (n : ℕ) (f : Fin 2048 → ℝ) : ℝ := ∑ u : Fin 2048, if u.val < n then f u else 0

/-- After `j` tiles: for some real `μ` the state is the partial softmax data shifted by `μ`. -/
def Inv (sr : Fin 2048 → ℝ) (vr : Fin 2048 → Fin 1024 → ℝ) (j : ℕ) (st : TileState) : Prop :=
  ∃ μ : ℝ, st.m = (μ : EReal)
    ∧ st.l = ((psum (512 * j) fun u => Real.exp (sr u - μ) : ℝ) : EReal)
    ∧ (∀ h, st.acc h = ((psum (512 * j) fun u => Real.exp (sr u - μ) * vr u h : ℝ) : EReal))
    ∧ ∀ u : Fin 2048, st.w u = if u.val < 512 * j then ((Real.exp (sr u - μ) : ℝ) : EReal) else 0

/-! ## Partial sums of real sequences -/

/-- No time step is before position zero. -/
theorem psum_zero (f : Fin 2048 → ℝ) : psum 0 f = 0 := by
  unfold psum
  exact Finset.sum_eq_zero fun u _ => if_neg (Nat.not_lt_zero _)

/-- The partial sum to the full length is the whole sum. -/
theorem psum_full (f : Fin 2048 → ℝ) : psum (512 * 4) f = ∑ u : Fin 2048, f u := by
  unfold psum
  exact Finset.sum_congr rfl fun u _ => if_pos (by have := u.isLt; omega)

/-- A constant factor enters a partial sum. -/
theorem mul_psum (a : ℝ) (n : ℕ) (f : Fin 2048 → ℝ) : a * psum n f = psum n fun u => a * f u := by
  unfold psum
  rw [Finset.mul_sum]
  refine Finset.sum_congr rfl fun u _ => ?_
  split_ifs
  · rfl
  · exact mul_zero a

/-- The positions of tile `j` are exactly the images of its 512 rows. -/
theorem sum_tile (j : Fin 4) (f : Fin 2048 → ℝ) :
    (∑ u : Fin 2048, if 512 * j.val ≤ u.val ∧ u.val < 512 * (j.val + 1) then f u else 0)
      = ∑ r : Fin 512, f (tilePos j r) := by
  rw [← Finset.sum_filter]
  symm
  refine Finset.sum_bij (fun r _ => tilePos j r) ?_ ?_ ?_ ?_
  · intro r _
    have := r.isLt
    simp only [Finset.mem_filter, Finset.mem_univ, true_and, tilePos]
    omega
  · intro a _ b _ h
    have h' := congrArg Fin.val h
    simp only [tilePos] at h'
    exact Fin.ext (by omega)
  · intro u hu
    simp only [Finset.mem_filter, Finset.mem_univ, true_and] at hu
    exact ⟨⟨u.val - 512 * j.val, by omega⟩, Finset.mem_univ _, Fin.ext (by simp only [tilePos]; omega)⟩
  · intro r _
    rfl

/-- A partial sum through tile `j` is the partial sum before it plus the tile's own terms. -/
theorem psum_succ (j : Fin 4) (f : Fin 2048 → ℝ) :
    psum (512 * (j.val + 1)) f = psum (512 * j.val) f + ∑ r : Fin 512, f (tilePos j r) := by
  rw [← sum_tile]
  unfold psum
  rw [← Finset.sum_add_distrib]
  refine Finset.sum_congr rfl fun u _ => ?_
  by_cases h1 : u.val < 512 * j.val
  · rw [if_pos h1, if_pos (by omega), if_neg (by omega), add_zero]
  · by_cases h2 : u.val < 512 * (j.val + 1)
    · rw [if_neg h1, if_pos h2, if_pos ⟨by omega, h2⟩, zero_add]
    · rw [if_neg h1, if_neg h2, if_neg (by omega), add_zero]

/-- Changing the shift of an exponential: `exp(a − b)·exp(x − a) = exp(x − b)`. -/
theorem exp_shift (a b x : ℝ) : Real.exp (a - b) * Real.exp (x - a) = Real.exp (x - b) := by
  rw [← Real.exp_add]
  congr 1
  ring

/-- The exponential sums of the softmax are positive. -/
theorem sum_exp_pos (sr : Fin 2048 → ℝ) (a : ℝ) : 0 < ∑ t : Fin 2048, Real.exp (sr t - a) :=
  Finset.sum_pos (fun t _ => Real.exp_pos _) Finset.univ_nonempty

/-- The softmax quotient does not depend on the shift. -/
theorem quot_shift (sr : Fin 2048 → ℝ) (a b : ℝ) (u : Fin 2048) :
    Real.exp (sr u - a) / ∑ t : Fin 2048, Real.exp (sr t - a)
      = Real.exp (sr u - b) / ∑ t : Fin 2048, Real.exp (sr t - b) := by
  have h1 : ∀ t, Real.exp (sr t - a) = Real.exp (b - a) * Real.exp (sr t - b) :=
    fun t => (exp_shift b a (sr t)).symm
  simp_rw [h1]
  rw [← Finset.mul_sum, mul_div_mul_left _ _ (Real.exp_pos _).ne']

/-! ## The step's quantities on real data -/

/-- The maximum of a tile of real scores is real. -/
theorem tmax_real (sc : Fin 512 → EReal) (g : Fin 512 → ℝ) (hsc : ∀ r, sc r = (g r : EReal)) :
    ∃ T : ℝ, tmax sc = (T : EReal) := by
  have h : sc = fun r => (g r : EReal) := funext hsc
  rw [h]
  exact fold_real g

theorem mnew_real (μ' T : ℝ) (sc : Fin 512 → EReal) (hT : tmax sc = (T : EReal)) :
    mnew (μ' : EReal) sc = ((max μ' T : ℝ) : EReal) := by
  unfold mnew
  rw [hT, coe_max]

theorem corr_real (μ' T : ℝ) (sc : Fin 512 → EReal) (hT : tmax sc = (T : EReal)) :
    corr (μ' : EReal) sc = ((Real.exp (μ' - max μ' T) : ℝ) : EReal) := by
  unfold corr
  rw [mnew_real μ' T sc hT, ← EReal.coe_sub, Ideal.exp_coe]

theorem pexp_real (μ' T : ℝ) (sc : Fin 512 → EReal) (hT : tmax sc = (T : EReal)) (r : Fin 512) (x : ℝ)
    (hx : sc r = (x : EReal)) : pexp (μ' : EReal) sc r = ((Real.exp (x - max μ' T) : ℝ) : EReal) := by
  unfold pexp
  rw [mnew_real μ' T sc hT, hx, ← EReal.coe_sub, Ideal.exp_coe]

theorem inv_reset (sr : Fin 2048 → ℝ) (vr : Fin 2048 → Fin 1024 → ℝ) : Inv sr vr 0 reset := by
  obtain ⟨r, hr⟩ := neg_real
  refine ⟨r, hr, ?_, fun h => ?_, fun u => ?_⟩
  · show (0 : EReal) = _
    rw [Nat.mul_zero, psum_zero, EReal.coe_zero]
  · show (0 : EReal) = _
    rw [Nat.mul_zero, psum_zero, EReal.coe_zero]
  · show (0 : EReal) = _
    rw [if_neg (by omega)]

theorem inv_step (sr : Fin 2048 → ℝ) (vr : Fin 2048 → Fin 1024 → ℝ) (j : Fin 4)
    (sc : Fin 512 → EReal) (vt : Fin 512 → Fin 1024 → EReal) (st : TileState)
    (hsc : ∀ r, sc r = ((sr (tilePos j r) : ℝ) : EReal))
    (hvt : ∀ r h, vt r h = ((vr (tilePos j r) h : ℝ) : EReal))
    (hst : Inv sr vr j.val st) : Inv sr vr (j.val + 1) (step j sc vt st) := by
  obtain ⟨μ', hm, hl, hacc, hw⟩ := hst
  obtain ⟨T, hT⟩ := tmax_real sc (fun r => sr (tilePos j r)) hsc
  have hM : mnew st.m sc = ((max μ' T : ℝ) : EReal) := by rw [hm]; exact mnew_real μ' T sc hT
  have hC : corr st.m sc = ((Real.exp (μ' - max μ' T) : ℝ) : EReal) := by rw [hm]; exact corr_real μ' T sc hT
  have hP : ∀ r, pexp st.m sc r = ((Real.exp (sr (tilePos j r) - max μ' T) : ℝ) : EReal) := fun r => by
    rw [hm]; exact pexp_real μ' T sc hT r _ (hsc r)
  refine ⟨max μ' T, hM, ?_, fun h => ?_, fun u => ?_⟩
  · have key : Real.exp (μ' - max μ' T) * psum (512 * j.val) (fun u => Real.exp (sr u - μ'))
          + ∑ r : Fin 512, Real.exp (sr (tilePos j r) - max μ' T)
        = psum (512 * (j.val + 1)) (fun u => Real.exp (sr u - max μ' T)) := by
      rw [psum_succ, mul_psum]
      simp_rw [exp_shift]
    show corr st.m sc * st.l + ∑ r : Fin 512, pexp st.m sc r = _
    rw [hC, hl, ← key, EReal.coe_add, EReal.coe_mul, coe_sum]
    congr 1
    exact Finset.sum_congr rfl fun r _ => hP r
  · have key : Real.exp (μ' - max μ' T) * psum (512 * j.val) (fun u => Real.exp (sr u - μ') * vr u h)
          + ∑ r : Fin 512, Real.exp (sr (tilePos j r) - max μ' T) * vr (tilePos j r) h
        = psum (512 * (j.val + 1)) (fun u => Real.exp (sr u - max μ' T) * vr u h) := by
      rw [psum_succ, mul_psum]
      simp_rw [← mul_assoc, exp_shift]
    show corr st.m sc * st.acc h + ∑ r : Fin 512, pexp st.m sc r * vt r h = _
    rw [hC, hacc h, ← key, EReal.coe_add, EReal.coe_mul, coe_sum]
    congr 1
    refine Finset.sum_congr rfl fun r _ => ?_
    rw [hP r, hvt r h, EReal.coe_mul]
  · by_cases hu : 512 * j.val ≤ u.val ∧ u.val < 512 * (j.val + 1)
    · have e1 : (step j sc vt st).w u = pexp st.m sc ⟨u.val - 512 * j.val, by omega⟩ := dif_pos hu
      have e2 : tilePos j ⟨u.val - 512 * j.val, by omega⟩ = u := Fin.ext (by simp only [tilePos]; omega)
      rw [e1, hP, if_pos hu.2, e2]
    · have e1 : (step j sc vt st).w u = st.w u * corr st.m sc := dif_neg hu
      rw [e1, hw u, hC]
      by_cases h1 : u.val < 512 * j.val
      · rw [if_pos h1, if_pos (by omega), ← EReal.coe_mul, mul_comm, exp_shift]
      · rw [if_neg h1, if_neg (by omega), zero_mul]

/-- After the four tiles the normalised state is the softmax of Spec: weights and attended value. -/
theorem inv_finish (s : Fin 32 → Fin 2048 → EReal) (xv : SQ.Idx → EReal) (b : Fin 32)
    (sr : Fin 2048 → ℝ) (vr : Fin 2048 → Fin 1024 → ℝ)
    (hs : ∀ t, s b t = ((sr t : ℝ) : EReal)) (hv : ∀ t h, xv (ix3 b t h) = ((vr t h : ℝ) : EReal))
    (st : TileState) (hst : Inv sr vr 4 st) :
    (∀ h, finishV st h = attended s xv b h) ∧ (∀ u, finishW st u = weight s b u) := by
  obtain ⟨μ, hm, hl, hacc, hw⟩ := hst
  obtain ⟨M, hM⟩ := fold_real sr
  have hsm : smax s b = (M : EReal) := by
    unfold smax
    rw [show (fun t : Fin 2048 => s b t) = fun t => ((sr t : ℝ) : EReal) from funext hs, hM]
    exact max_eq_right bot_le
  have hse : ∀ t, sexp s b t = ((Real.exp (sr t - M) : ℝ) : EReal) := fun t => by
    unfold sexp
    rw [hsm, hs t, ← EReal.coe_sub, Ideal.exp_coe]
  have hss : ssum s b = ((∑ t : Fin 2048, Real.exp (sr t - M) : ℝ) : EReal) := by
    unfold ssum
    rw [zero_add, coe_sum]
    exact Finset.sum_congr rfl fun t _ => hse t
  have hLM : 0 < ∑ t : Fin 2048, Real.exp (sr t - M) := sum_exp_pos sr M
  have hL : 0 < ∑ t : Fin 2048, Real.exp (sr t - μ) := sum_exp_pos sr μ
  have hwt : ∀ u, weight s b u
      = ((Real.exp (sr u - M) / ∑ t : Fin 2048, Real.exp (sr t - M) : ℝ) : EReal) := fun u => by
    unfold weight
    rw [hse u, hss, Ideal.div_coe hLM.ne', ← EReal.coe_mul, mul_one_div]
  have hdiv : Ideal.div (Ideal.ofBits .f32 0x3F800000#32) st.l
      = ((1 / ∑ t : Fin 2048, Real.exp (sr t - μ) : ℝ) : EReal) := by
    rw [hl, psum_full, Ideal.div_coe hL.ne', one_real, ← EReal.coe_mul, one_mul]
  constructor
  · intro h
    have hterm : ∀ t, weight s b t * xv (ix3 b t h)
        = ((Real.exp (sr t - M) / (∑ t : Fin 2048, Real.exp (sr t - M)) * vr t h : ℝ) : EReal) := fun t => by
      rw [hwt t, hv t h, EReal.coe_mul]
    unfold finishV attended
    rw [hdiv, hacc h, psum_full, ← EReal.coe_mul, Finset.sum_congr rfl fun t _ => hterm t, ← coe_sum,
      Finset.sum_mul, EReal.coe_eq_coe_iff]
    refine Finset.sum_congr rfl fun t _ => ?_
    rw [← quot_shift sr μ M t]
    ring
  · intro u
    unfold finishW
    rw [hdiv, hw u, if_pos (by have := u.isLt; omega), hwt u, ← EReal.coe_mul, mul_one_div,
      quot_shift sr μ M u]

end Cert.Attn

end
-- ==== Proof.TileDefs.lean ====
/-
  The kernel's grid point read as plain numbers: the tile's 512 masked scores, the tile's 512 × 1024 values,
  and the running state as a maximum, a sum, a row of 1024 weighted sums and a row of 2048 weights.
-/
import proofs.«416368_j68539088109695_2_alg».proof.Proof.KernelStep
import proofs.«416368_j68539088109695_2_alg».proof.Proof.Math

noncomputable section

namespace Cert.KernelIdeal.Tile

open Cert.KernelIdeal Cert.KernelIdeal.Gen Cert.KernelIdeal.Step Cert.Attn
open Idealize.ShloMosaic Idealize.ShloMosaic.TcCoe Idealize.ShloMosaic.ValueIdx

/-- The tile's masked scores, row by row. -/
def tsc (i : grid0.Coords) (x0 x1 : Vec Ideal S1x512x1024 .f32) (x3 : Vec Ideal S2048x1024 .bf16) (x4 : Vec Ideal S1024 .f32)
    (x5 : Vec Ideal S1x1024 .f32) (x6 : Vec Ideal S1 .f32) (wd : Elt Ideal .i32) : Fin 512 → EReal :=
  fun r => k0_pay12 (k0_pay10 x0 x1 x3 x4 x5 x6) (k0_pay11 (F := Ideal) i wd) (ix2 r 0)

/-- The tile's values. -/
def tval (x2 : Vec Ideal S1x512x1024 .f32) : Fin 512 → Fin 1024 → EReal := fun r h => x2 (ix3 0 r h)

/-- The running state as numbers. -/
def toState (m0 l0 : Vec Ideal S1x1 .f32) (a0 : Vec Ideal S1x1024 .f32) (w0 : Vec Ideal S1x1x2048 .f32) : TileState :=
  ⟨m0 (ix2 0 0), l0 (ix2 0 0), fun h => a0 (ix2 0 h), fun u => w0 (ix3 0 0 u)⟩

end Cert.KernelIdeal.Tile

end
-- ==== Proof.TileStep.lean ====
/-
  One grid point of the kernel, read at the extended reals index by index, is the tile step of the online
  softmax: the reshapes, broadcasts and the transpose only move entries; the lane and sublane reductions are
  plain sums over the tile's 512 rows; the maximum reduction is the fold of `max` from −∞.
-/
import proofs.«416368_j68539088109695_2_alg».proof.Proof.TileDefs
import Idealize.ShloMosaic.Lib.Pipeline.Value
import Idealize.ShloMosaic.Lib.ValueLayout
import Idealize.ShloMosaic.PureOps.Ideal.Laws

noncomputable section

namespace Cert.KernelIdeal.Tile

open Cert.KernelIdeal Cert.KernelIdeal.Gen Cert.KernelIdeal.Step Cert.Attn
open Idealize.ShloMosaic Idealize.ShloMosaic.TcCoe Idealize.ShloMosaic.ValueIdx

/-- The f32 pattern of −∞ is the bottom extended real. -/
theorem ofBits_neg_inf : Ideal.ofBits .f32 0xFF800000#32 = (⊥ : EReal) := by
  simp [Ideal.ofBits, Ideal.ieee]

/-- Row `r` put back into the one-entry result of a reduction over the rows of a 512 × 1 column. -/
theorem lift_col (j : S1.Idx) (r : Fin 512) : reduces_S512x1_S1.lift j r = ix2 r 0 := by
  funext a
  match a with
  | ⟨0, _⟩ => rfl
  | ⟨1, _⟩ => exact Fin.ext (Nat.lt_one_iff.mp (Fin.isLt _))

/-- Row `r` put back into entry `h` of a reduction over the rows of a 512 × 1024 block. -/
theorem lift_blk (h : Fin 1024) (r : Fin 512) : reduces_S512x1024_S1024.lift (ix1 h) r = ix2 r h := by
  funext a
  match a with
  | ⟨0, _⟩ => rfl
  | ⟨1, _⟩ => rfl

section Body

variable (v27 : FVec Ideal S512x1 .f32) (v38 : IVec S512x1 1) (m0 : Vec Ideal S1x1 .f32)

/-- The tile's masked scores as a function of the row. -/
def rowsc : Fin 512 → EReal := fun r => k0_pay12 v27 v38 (ix2 r 0)

/-- The new maximum. -/
theorem pay13_apply : k0_pay13 v27 v38 m0 (ix2 0 0) = mnew (m0 (ix2 0 0)) (rowsc v27 v38) := by
  unfold k0_pay13 mnew tmax
  rw [maximumf_apply]
  congr 1
  refine (shapeCast_a_1a_apply _ _ 0 0).trans ?_
  refine (Ideal.multiReduction_maximumf_single _ _ _ _ _ _).trans ?_
  rw [Ideal.ofBits_def, ofBits_neg_inf]
  have e : (k0_pay12 v27 v38 ∘ reduces_S512x1_S1.lift (ix1 0)) = rowsc v27 v38 := by
    funext r; exact congrArg (k0_pay12 v27 v38) (lift_col _ r)
  exact congrArg (fun f => Finset.univ.fold max (⊥ : EReal) f) e

/-- The correction factor. -/
theorem pay14_apply : k0_pay14 v27 v38 m0 (ix2 0 0) = corr (m0 (ix2 0 0)) (rowsc v27 v38) := by
  unfold k0_pay14 corr
  show FloatOps.exp (subf m0 (k0_pay13 v27 v38 m0) (ix2 0 0)) = _
  rw [Ideal.exp_def, subf_apply, pay13_apply]

/-- The tile's exponentials. -/
theorem pay15_apply (r : Fin 512) : k0_pay15 v27 v38 m0 (ix2 r 0) = pexp (m0 (ix2 0 0)) (rowsc v27 v38) r := by
  unfold k0_pay15 pexp
  show FloatOps.exp (subf (k0_pay12 v27 v38) (broadcastTo S512x1 (k0_pay13 v27 v38 m0) broadcasts_S1x1_S512x1) (ix2 r 0)) = _
  rw [Ideal.exp_def, subf_apply]
  congr 2
  refine (broadcastTo_apply _ _ (ix2 r 0) (ix2 0 0) ?_).trans (pay13_apply v27 v38 m0)
  intro a; match a with
    | ⟨0, _⟩ => rfl
    | ⟨1, _⟩ => rfl

/-- The new sum. -/
theorem pay17_apply (l0 : Vec Ideal S1x1 .f32) :
    k0_pay17 v27 v38 m0 l0 (ix2 0 0)
      = corr (m0 (ix2 0 0)) (rowsc v27 v38) * l0 (ix2 0 0) + ∑ r : Fin 512, pexp (m0 (ix2 0 0)) (rowsc v27 v38) r := by
  unfold k0_pay17
  rw [shapeCast_self, addf_apply, mulf_apply, pay14_apply]
  congr 1
  refine (shapeCast_a_1a_apply _ _ 0 0).trans ?_
  refine (Ideal.multiReduction_add_single _ _ _ _ _ _).trans ?_
  refine Finset.sum_congr rfl fun r _ => ?_
  exact (congrArg (k0_pay15 v27 v38 m0) (lift_col _ r)).trans (pay15_apply v27 v38 m0 r)

end Body

section Body2

variable (v27 : FVec Ideal S512x1 .f32) (v38 : IVec S512x1 1) (m0 : Vec Ideal S1x1 .f32)

/-- The new weighted sum, feature `h`. -/
theorem pay18_apply (x2 : Vec Ideal S1x512x1024 .f32) (a0 : Vec Ideal S1x1024 .f32) (h : Fin 1024) :
    k0_pay18 v27 v38 m0 x2 a0 (ix2 0 h)
      = corr (m0 (ix2 0 0)) (rowsc v27 v38) * a0 (ix2 0 h)
        + ∑ r : Fin 512, pexp (m0 (ix2 0 0)) (rowsc v27 v38) r * x2 (ix3 0 r h) := by
  unfold k0_pay18
  rw [shapeCast_self, addf_apply, mulf_apply]
  congr 1
  · congr 1
    refine (broadcastTo_apply _ _ (ix2 0 h) (ix2 0 0) ?_).trans (pay14_apply v27 v38 m0)
    intro a; match a with
      | ⟨0, _⟩ => rfl
      | ⟨1, _⟩ => rfl
  · refine (shapeCast_a_1a_apply _ _ 0 h).trans ?_
    refine (Ideal.multiReduction_add_single _ _ _ _ _ _).trans ?_
    refine Finset.sum_congr rfl fun r _ => ?_
    refine (congrArg _ (lift_blk h r)).trans ?_
    rw [mulf_apply]
    congr 1
    · refine (broadcastTo_apply _ _ (ix2 r h) (ix2 r 0) ?_).trans (pay15_apply v27 v38 m0 r)
      intro a; match a with
        | ⟨0, _⟩ => rfl
        | ⟨1, _⟩ => rfl
    · exact shapeCast_1ab_ab_apply _ _ r h

/-- The tile's own entries of the weight row. -/
theorem pay1_pay16_apply (q : Fin 512) :
    k0_pay1 (k0_pay16 v27 v38 m0) (ix3 0 0 q) = pexp (m0 (ix2 0 0)) (rowsc v27 v38) q := by
  unfold k0_pay1 k0_pay16
  refine (shapeCast_ab_1ab_apply _ _ 0 0 q).trans ?_
  refine (transpose_ix2_apply _ _ 0 q).trans ?_
  exact pay15_apply v27 v38 m0 q

/-- The other entries of the weight row are rescaled. -/
theorem pay19_apply (w0 : Vec Ideal S1x1x2048 .f32) (u : Fin 2048) :
    k0_pay19 v27 v38 m0 w0 (ix3 0 0 u) = w0 (ix3 0 0 u) * corr (m0 (ix2 0 0)) (rowsc v27 v38) := by
  unfold k0_pay19
  rw [mulf_apply, shapeCast_self]
  congr 1
  refine (broadcastTo_apply _ _ (ix3 0 0 u) (ix3 0 0 0) ?_).trans ?_
  · intro a; match a with
    | ⟨0, _⟩ => rfl
    | ⟨1, _⟩ => rfl
    | ⟨2, _⟩ => rfl
  refine (shapeCast_apply _ _ (ix3 0 0 0) (ix2 0 0) rfl).trans ?_
  exact pay14_apply v27 v38 m0

end Body2

variable (i : grid0.Coords) (x0 x1 x2 : Vec Ideal S1x512x1024 .f32) (x3 : Vec Ideal S2048x1024 .bf16) (x4 : Vec Ideal S1024 .f32)
  (x5 : Vec Ideal S1x1024 .f32) (x6 : Vec Ideal S1 .f32) (wd : Elt Ideal .i32)

/-- The reset values are the reset state: −10⁹, 0, the zero row, the zero row. -/
theorem reset_state : toState (k0_pay7 (F := Ideal)) (k0_pay8 (F := Ideal)) (k0_pay9 (F := Ideal)) (k0_pay6 (F := Ideal)) = reset := by
  unfold toState reset k0_pay7 k0_pay8 k0_pay9 k0_pay6
  rw [shapeCast_self, shapeCast_self, shapeCast_self]
  simp only [broadcast_apply]
  refine congr (congr (congr (congrArg TileState.mk ?_) ?_) ?_) ?_
  · rfl
  · exact Ideal.ofBits_zero_f32
  · funext h; exact Ideal.ofBits_zero_f32
  · funext u; exact Ideal.ofBits_zero_f32

/-- The new weight row, entry `u`: inside tile `j` the tile's exponential, outside the old entry rescaled. -/
theorem stepW_apply (j : Fin 4) (hj : (i 1).val = j.val) (m0 : Vec Ideal S1x1 .f32) (w0 : Vec Ideal S1x1x2048 .f32) (u : Fin 2048) :
    stepW i x0 x1 x3 x4 x5 x6 wd m0 w0 (ix3 0 0 u)
      = if hu : 512 * j.val ≤ u.val ∧ u.val < 512 * (j.val + 1) then
          pexp (m0 (ix2 0 0)) (tsc i x0 x1 x3 x4 x5 x6 wd) ⟨u.val - 512 * j.val, by omega⟩
        else w0 (ix3 0 0 u) * corr (m0 (ix2 0 0)) (tsc i x0 x1 x3 x4 x5 x6 wd) := by
  unfold stepW
  by_cases hu : 512 * j.val ≤ u.val ∧ u.val < 512 * (j.val + 1)
  · have hk : 512 * (i 1).val ≤ ((ix3 (0 : Fin 1) (0 : Fin 1) u) 2).val
        ∧ ((ix3 (0 : Fin 1) (0 : Fin 1) u) 2).val < 512 * (i 1).val + 512 := by
      show 512 * (i 1).val ≤ u.val ∧ u.val < 512 * (i 1).val + 512
      omega
    rw [dif_pos hk, dif_pos hu]
    have es : sliceIdx i (ix3 (0 : Fin 1) (0 : Fin 1) u) hk = ix3 (0 : Fin 1) (0 : Fin 1) (⟨u.val - 512 * j.val, by omega⟩ : Fin 512) := by
      funext a
      match a with
      | ⟨0, _⟩ => rfl
      | ⟨1, _⟩ => rfl
      | ⟨2, _⟩ => exact Fin.ext (by show u.val - 512 * (i 1).val = u.val - 512 * j.val; rw [hj])
    rw [es]
    exact pay1_pay16_apply _ _ m0 _
  · have hk : ¬ (512 * (i 1).val ≤ ((ix3 (0 : Fin 1) (0 : Fin 1) u) 2).val
        ∧ ((ix3 (0 : Fin 1) (0 : Fin 1) u) 2).val < 512 * (i 1).val + 512) := by
      show ¬ (512 * (i 1).val ≤ u.val ∧ u.val < 512 * (i 1).val + 512)
      omega
    rw [dif_neg hk, dif_neg hu]
    exact pay19_apply _ _ m0 w0 u

/-- The body's new state is the tile step at tile `j = i₁`. -/
theorem step_state (j : Fin 4) (hj : (i 1).val = j.val) (m0 l0 : Vec Ideal S1x1 .f32) (a0 : Vec Ideal S1x1024 .f32)
    (w0 : Vec Ideal S1x1x2048 .f32) :
    toState (stepM i x0 x1 x3 x4 x5 x6 wd m0) (stepL i x0 x1 x3 x4 x5 x6 wd m0 l0)
        (stepA i x0 x1 x2 x3 x4 x5 x6 wd m0 a0) (stepW i x0 x1 x3 x4 x5 x6 wd m0 w0)
      = step j (tsc i x0 x1 x3 x4 x5 x6 wd) (tval x2) (toState m0 l0 a0 w0) := by
  unfold toState step
  refine congr (congr (congr (congrArg TileState.mk ?_) ?_) ?_) ?_
  · unfold stepM k0_pay2
    rw [shapeCast_self]
    exact pay13_apply _ _ m0
  · exact pay17_apply _ _ m0 l0
  · funext h
    exact pay18_apply _ _ m0 x2 a0 h
  · funext u
    exact stepW_apply i x0 x1 x3 x4 x5 x6 wd j hj m0 w0 u

/-- The final division of the weighted sums, entry `h`. -/
theorem finV_apply (L : Vec Ideal S1x1 .f32) (A : Vec Ideal S1x1024 .f32) (h : Fin 1024) :
    k0_pay4 L A (ix3 0 0 h) = A (ix2 0 h) * Ideal.div (Ideal.ofBits .f32 0x3F800000#32) (L (ix2 0 0)) := by
  unfold k0_pay4 k0_pay3
  refine (shapeCast_apply _ _ (ix3 0 0 h) (ix1 h) ?_).trans ?_
  · rw [Shape.rowMajor_val_three, Shape.rowMajor_val_one]
    show h.val = (0 * 1 + 0) * 1024 + h.val
    omega
  refine (shapeCast_1a_a_apply _ _ h).trans ?_
  rw [mulf_apply]
  congr 1
  refine (broadcastTo_apply _ _ (ix2 0 h) (ix2 0 0) ?_).trans rfl
  intro a
  match a with
  | ⟨0, _⟩ => rfl
  | ⟨1, _⟩ => rfl

/-- The final division of the weight row, entry `u`. -/
theorem finW_apply (L : Vec Ideal S1x1 .f32) (W : Vec Ideal S1x1x2048 .f32) (u : Fin 2048) :
    k0_pay5 L W (ix3 0 0 u) = W (ix3 0 0 u) * Ideal.div (Ideal.ofBits .f32 0x3F800000#32) (L (ix2 0 0)) := by
  unfold k0_pay5 k0_pay3
  rw [mulf_apply, shapeCast_self]
  congr 1
  refine (broadcastTo_apply _ _ (ix3 0 0 u) (ix3 0 0 0) ?_).trans ?_
  · intro a
    match a with
    | ⟨0, _⟩ => rfl
    | ⟨1, _⟩ => rfl
    | ⟨2, _⟩ => rfl
  exact (shapeCast_apply _ _ (ix3 0 0 0) (ix2 0 0) rfl).trans rfl

end Cert.KernelIdeal.Tile

end
-- ==== Proof.TileScore.lean ====
/-
  The tile's masked scores are Spec's scores at the tile's rows.

  The kernel multiplies the row [q | k] (2048 entries) by the stacked matrix [Wqᵀ ; Wkᵀ] and adds bq + bk;
  splitting the sum over the 2048 columns into its two halves and regrouping the four summands gives
  (q·Wqᵀ + bq) + (k·Wkᵀ + bk).  The score is the lane sum of tanh(·)·Wz plus bz, and the mask compares the
  global row index 512·j + r with lengths[b].

  The steps, in order: the matrix product into a zero accumulator read at (r, o) as a sum over the 2048
  contraction positions; the joined row read at a column as the query below 1024 and the key from 1024 on;
  the keep-dimension casts and broadcasts read at an index; the unmasked score of row r as one closed
  expression; the sum split at 1024 and regrouped into the two projections; the mask word 512·j + r
  compared with lengths[b], the second comparison (against 2048) never holding; the select.
-/
import proofs.«416368_j68539088109695_2_alg».proof.Proof.TileDefs
import Idealize.ShloMosaic.Lib.Pipeline.Value
import Idealize.ShloMosaic.Lib.ValueLayout
import Idealize.ShloMosaic.PureOps.Ideal.Laws
import Idealize.ShloMosaic.Lib.StableHlo.Predicate

noncomputable section

namespace Cert.KernelIdeal.Tile

open Cert.KernelIdeal Cert.KernelIdeal.Gen Cert.KernelIdeal.Step Cert.Attn
open Idealize.ShloMosaic Idealize.ShloMosaic.TcCoe Idealize.ShloMosaic.ValueIdx

namespace Score

/-! ## The matrix product [512, 2048] × [2048, 1024] at an index -/

/-- The left operand's row coordinate is the result's row. -/
theorem lhs_mm_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
/-- The left operand's column coordinate is the contraction position. -/
theorem lhs_mm_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
/-- The right operand's row coordinate is the contraction position. -/
theorem rhs_mm_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
/-- The right operand's column coordinate is the result's column. -/
theorem rhs_mm_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- The kernel's matrix product into a zero accumulator, at row r and column o, is the sum over the 2048 contraction positions. -/
theorem mm_apply (A : FVec Ideal S512x2048 .bf16) (B : FVec Ideal S2048x1024 .bf16) (r : Fin 512) (o : Fin 1024) :
    matmul (F := Ideal) dot_S512x2048_S2048x1024_S512x1024_1_0_0_1_n_n none A B (constant S512x1024 .f32 0x00000000#32) (ix2 r o)
      = ∑ k : Fin 2048, A (ix2 r k) * B (ix2 k o) := by
  simp only [matmul]
  rw [Ideal.matmul_constant_zero_apply, ← Equiv.sum_comp (ValueIdx.contrEquiv1 dot_S512x2048_S2048x1024_S512x1024_1_0_0_1_n_n 2048 rfl rfl).symm]
  refine Finset.sum_congr rfl fun k _ => ?_
  have hk := ValueIdx.contrEquiv1_symm_val dot_S512x2048_S2048x1024_S512x1024_1_0_0_1_n_n 2048 rfl rfl k
  have el : dot_S512x2048_S2048x1024_S512x1024_1_0_0_1_n_n.lhsIdx (ix2 r o) ((ValueIdx.contrEquiv1 dot_S512x2048_S2048x1024_S512x1024_1_0_0_1_n_n 2048 rfl rfl).symm k) = ix2 r k := funext fun a => Fin.ext (by
    match a with
    | ⟨0, _⟩ => exact lhs_mm_0 _ _
    | ⟨1, _⟩ => exact (lhs_mm_1 _ _).trans hk)
  have er : dot_S512x2048_S2048x1024_S512x1024_1_0_0_1_n_n.rhsIdx (ix2 r o) ((ValueIdx.contrEquiv1 dot_S512x2048_S2048x1024_S512x1024_1_0_0_1_n_n 2048 rfl rfl).symm k) = ix2 k o := funext fun a => Fin.ext (by
    match a with
    | ⟨0, _⟩ => exact (rhs_mm_0 _ _).trans hk
    | ⟨1, _⟩ => exact rhs_mm_1 _ _)
  rw [el, er]

/-! ## Keep-dimension casts and broadcasts, and the lane sum, at an index -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array broadcast to `[a, 1]` reads its one entry everywhere. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

end Layout

/-- The lane sum at row r is the sum over the 1024 lanes. -/
theorem lanesum_apply (v : FVec Ideal S512x1024 .f32) (r : Fin 512) :
    multiReduction (F := Ideal) .add [1] S512 v 0x00000000#32 reduces_S512x1024_S512 (.inl rfl) rfl (ix1 r)
      = ∑ o : Fin 1024, v (ix2 r o) := by
  refine (Ideal.multiReduction_add_single v _ reduces_S512x1024_S512 _ _ (ix1 r)).trans ?_
  refine Finset.sum_congr rfl fun o _ => congrArg v ?_
  funext c
  match c with
  | ⟨0, _⟩ => rfl
  | ⟨1, _⟩ => rfl

/-! ## The joined row [q | k] -/

/-- The joined row at a column below 1024 is the first piece there. -/
theorem cat_left (v5 v8 : FVec Ideal S512x1024 .bf16) (r : Fin 512) (k : Fin 2048) (hk : k.val < 1024) :
    concatenate S512x2048 1 [⟨S512x1024, v5⟩, ⟨S512x1024, v8⟩] concatenates_S512x1024_S512x1024_S512x2048_d1 (ix2 r k)
      = v5 (ix2 r ⟨k.val, hk⟩) :=
  concatenate_pair_apply_left 1 v5 v8 _ (ix2 r k) rfl (ix2 r ⟨k.val, hk⟩) (fun b => by
    match b with
    | ⟨0, _⟩ => rfl
    | ⟨1, _⟩ => rfl)

/-- The joined row at a column from 1024 on is the second piece, 1024 columns earlier. -/
theorem cat_right (v5 v8 : FVec Ideal S512x1024 .bf16) (r : Fin 512) (k : Fin 2048) (hk : ¬ k.val < 1024) :
    concatenate S512x2048 1 [⟨S512x1024, v5⟩, ⟨S512x1024, v8⟩] concatenates_S512x1024_S512x1024_S512x2048_d1 (ix2 r k)
      = v8 (ix2 r ⟨k.val - 1024, by have := k.isLt; omega⟩) :=
  concatenate_pair_apply_right 1 v5 v8 _ (ix2 r k) rfl rfl (ix2 r ⟨k.val - 1024, by have := k.isLt; omega⟩) (fun b hb => by
    match b with
    | ⟨0, _⟩ => rfl
    | ⟨1, _⟩ => exact absurd rfl hb) (by
    show k.val - 1024 + 1024 = k.val
    omega)

/-- The row [q | k] of the tile at row r. -/
def catRow (x0 x1 : Vec Ideal S1x512x1024 .f32) (r : Fin 512) (k : Fin 2048) : EReal :=
  if hk : k.val < 1024 then x0 (ix3 0 r ⟨k.val, hk⟩) else x1 (ix3 0 r ⟨k.val - 1024, by have := k.isLt; omega⟩)

/-- The unmasked score of row r: the lane sum of tanh(row · stacked matrix + bias) · score weights, plus the score bias. -/
theorem pay10_apply (x0 x1 : Vec Ideal S1x512x1024 .f32) (x3 : Vec Ideal S2048x1024 .bf16) (x4 : Vec Ideal S1024 .f32)
    (x5 : Vec Ideal S1x1024 .f32) (x6 : Vec Ideal S1 .f32) (r : Fin 512) :
    k0_pay10 x0 x1 x3 x4 x5 x6 (ix2 r 0)
      = (∑ o : Fin 1024, Ideal.tanh ((∑ k : Fin 2048, catRow x0 x1 r k * x3 (ix2 k o)) + x4 (ix1 o)) * x5 (ix2 0 o)) + x6 (ix1 0) := by
  unfold k0_pay10
  refine congrArg₂ (· + ·) ?_ ?_
  · refine (shapeCast_a_a1_apply _ _ r 0).trans ?_
    refine (lanesum_apply _ r).trans ?_
    refine Finset.sum_congr rfl fun o _ => ?_
    refine congrArg₂ (· * ·) ?_ ?_
    · refine congrArg Ideal.tanh ?_
      refine congrArg₂ (· + ·) ?_ ?_
      · refine (mm_apply _ _ r o).trans ?_
        refine Finset.sum_congr rfl fun k _ => ?_
        refine congrArg₂ (· * ·) ?_ ?_
        · unfold catRow
          by_cases hk : k.val < 1024
          · rw [dif_pos hk]
            refine (cat_left _ _ r k hk).trans ?_
            exact shapeCast_1ab_ab_apply x0 _ r ⟨k.val, hk⟩
          · rw [dif_neg hk]
            refine (cat_right _ _ r k hk).trans ?_
            exact shapeCast_1ab_ab_apply x1 _ r _
        · exact congrFun (shapeCast_self x3 _) _
      · refine (broadcastTo_1b_ab_apply _ _ r o).trans ?_
        refine (shapeCast_a_1a_apply _ _ 0 o).trans ?_
        exact congrFun (shapeCast_self x4 _) _
    · exact broadcastTo_1b_ab_apply x5 _ r o
  · refine (broadcastTo_11_a1_apply _ _ r 0).trans ?_
    exact shapeCast_a_1a_apply x6 _ 0 0

/-! ## The mask word -/

open Idealize.ShloMosaic.StableHlo.Predicate in
/-- A small word is not at or above 2048 in the signed order. -/
theorem sge_2048_zero (n : ℕ) (hn : n < 2048) : IntOp.cmpi .sge (BitVec.ofNat 32 n) 2048#32 = 0#1 := by
  refine eq_zero_of_ne_one fun h => ?_
  have h2 := (sge_iff_toNat (a := BitVec.ofNat 32 n) (b := 2048#32)
    (by simp only [BitVec.toNat_ofNat]; omega) (by decide)).mp h
  simp only [BitVec.toNat_ofNat] at h2
  omega

/-- The global row word: 512 · j + r. -/
theorem row_word (a r : ℕ) (ha : a < 4) (hr : r < 512) :
    IntOp.addi (Scalar.muli (BitVec.ofNat 32 a) 512#32) (BitVec.ofNat 32 r) = BitVec.ofNat 32 (512 * a + r) := by
  apply BitVec.eq_of_toNat_eq
  simp only [IntOp.addi, Scalar.muli, IntOp.muli, BitVec.toNat_add, BitVec.toNat_mul, BitVec.toNat_ofNat]
  omega

/-- The mask bit of row r: the word 512 · j + r compared with the length word; the comparison against 2048 never holds. -/
theorem pay11_apply (i : grid0.Coords) (wd : Elt Ideal .i32) (j : Fin 4) (hi1 : (i 1).val = j.val) (r : Fin 512) :
    k0_pay11 (F := Ideal) i wd (ix2 r 0) = Scalar.cmpi .sge (BitVec.ofNat 32 (tilePos j r).val) wd := by
  unfold k0_pay11
  show IntOp.ori (IntOp.cmpi .sge (IntOp.addi (Scalar.muli (BitVec.ofNat 32 (i 1).val) 512#32) (iota .tc S512x1 32 [0] iota_S512x1_d0_w32 (ix2 r 0))) wd)
      (IntOp.cmpi .sge (IntOp.addi (Scalar.muli (BitVec.ofNat 32 (i 1).val) 512#32) (iota .tc S512x1 32 [0] iota_S512x1_d0_w32 (ix2 r 0))) 2048#32) = _
  rw [iota_single_apply, hi1]
  show IntOp.ori (IntOp.cmpi .sge (IntOp.addi (Scalar.muli (BitVec.ofNat 32 j.val) 512#32) (BitVec.ofNat 32 r.val)) wd)
      (IntOp.cmpi .sge (IntOp.addi (Scalar.muli (BitVec.ofNat 32 j.val) 512#32) (BitVec.ofNat 32 r.val)) 2048#32) = _
  rw [row_word j.val r.val j.isLt r.isLt, sge_2048_zero _ (by have := j.isLt; have := r.isLt; omega)]
  show IntOp.cmpi .sge (BitVec.ofNat 32 (512 * j.val + r.val)) wd ||| 0#1 = IntOp.cmpi .sge (BitVec.ofNat 32 (512 * j.val + r.val)) wd
  exact BitVec.or_zero

/-! ## The two projections -/

/-- A sum over 2048 positions splits at 1024. -/
theorem sum_split (f : Fin 2048 → EReal) :
    ∑ k : Fin 2048, f k
      = (∑ h : Fin 1024, f ⟨h.val, by have := h.isLt; omega⟩) + ∑ h : Fin 1024, f ⟨1024 + h.val, by have := h.isLt; omega⟩ :=
  Fin.sum_univ_add (a := 1024) (b := 1024) f

section Proj

variable (x0 x1 : Vec Ideal S1x512x1024 .f32) (x3 : Vec Ideal S2048x1024 .bf16) (x4 : Vec Ideal S1024 .f32)
    (xq xk : SQ.Idx → EReal) (wq wk : SW.Idx → EReal) (bq bk : SB.Idx → EReal) (b : Fin 32) (j : Fin 4)
    (h0 : ∀ (r : Fin 512) (h : Fin 1024), x0 (ix3 0 r h) = xq (ix3 b (tilePos j r) h))
    (h1 : ∀ (r : Fin 512) (h : Fin 1024), x1 (ix3 0 r h) = xk (ix3 b (tilePos j r) h))
    (h3 : ∀ (k : Fin 2048) (o : Fin 1024), x3 (ix2 k o)
        = if hk : k.val < 1024 then wq (ix2 o ⟨k.val, hk⟩) else wk (ix2 o ⟨k.val - 1024, by have := k.isLt; omega⟩))
    (h4 : ∀ o : Fin 1024, x4 (ix1 o) = bq (ix1 o) + bk (ix1 o))

include h0 h3 in
/-- The first 1024 columns carry the query row against Wq. -/
theorem term_left (r : Fin 512) (o : Fin 1024) (h : Fin 1024) :
    catRow x0 x1 r ⟨h.val, by have := h.isLt; omega⟩ * x3 (ix2 ⟨h.val, by have := h.isLt; omega⟩ o)
      = xq (ix3 b (tilePos j r) h) * wq (ix2 o h) := by
  have hk : (⟨h.val, by have := h.isLt; omega⟩ : Fin 2048).val < 1024 := h.isLt
  refine congrArg₂ (· * ·) ?_ ?_
  · unfold catRow
    rw [dif_pos hk]
    exact h0 r h
  · rw [h3, dif_pos hk]

include h1 h3 in
/-- The last 1024 columns carry the key row against Wk. -/
theorem term_right (r : Fin 512) (o : Fin 1024) (h : Fin 1024) :
    catRow x0 x1 r ⟨1024 + h.val, by have := h.isLt; omega⟩ * x3 (ix2 ⟨1024 + h.val, by have := h.isLt; omega⟩ o)
      = xk (ix3 b (tilePos j r) h) * wk (ix2 o h) := by
  have hk : ¬ (⟨1024 + h.val, by have := h.isLt; omega⟩ : Fin 2048).val < 1024 := by
    show ¬ 1024 + h.val < 1024
    omega
  have e : (⟨1024 + h.val - 1024, by have := h.isLt; omega⟩ : Fin 1024) = h := Fin.ext (by show 1024 + h.val - 1024 = h.val; omega)
  refine congrArg₂ (· * ·) ?_ ?_
  · unfold catRow
    rw [dif_neg hk]
    exact (congrArg (fun z => x1 (ix3 0 r z)) e).trans (h1 r h)
  · rw [h3, dif_neg hk]
    exact congrArg (fun z => wk (ix2 o z)) e

include h0 h1 h3 h4 in
/-- The stacked product plus the summed bias is the sum of the two projections. -/
theorem proj_eq (r : Fin 512) (o : Fin 1024) :
    (∑ k : Fin 2048, catRow x0 x1 r k * x3 (ix2 k o)) + x4 (ix1 o) = proj xq xk wq wk bq bk b (tilePos j r) o := by
  rw [sum_split, h4 o, add_add_add_comm]
  unfold proj
  refine congrArg₂ (· + ·) (congrArg (· + bq (ix1 o)) ?_) (congrArg (· + bk (ix1 o)) ?_)
  · exact Finset.sum_congr rfl fun h _ => term_left x0 x1 x3 xq wq wk b j h0 h3 r o h
  · exact Finset.sum_congr rfl fun h _ => term_right x0 x1 x3 xk wq wk b j h1 h3 r o h

end Proj

end Score

open Score in
/-- The tile's masked score at row r is Spec's score at position 512 · j + r of batch b. -/
theorem tsc_eq_score (i : grid0.Coords) (x0 x1 : Vec Ideal S1x512x1024 .f32) (x3 : Vec Ideal S2048x1024 .bf16)
    (x4 : Vec Ideal S1024 .f32) (x5 : Vec Ideal S1x1024 .f32) (x6 : Vec Ideal S1 .f32) (wd : Elt Ideal .i32)
    (xq xk : SQ.Idx → EReal) (len : SLen.Idx → BitVec 32) (wq wk : SW.Idx → EReal) (bq bk : SB.Idx → EReal)
    (wz : SWz.Idx → EReal) (bz : SBz.Idx → EReal) (b : Fin 32) (j : Fin 4)
    (hi1 : (i 1).val = j.val)
    (h0 : ∀ (r : Fin 512) (h : Fin 1024), x0 (ix3 0 r h) = xq (ix3 b (tilePos j r) h))
    (h1 : ∀ (r : Fin 512) (h : Fin 1024), x1 (ix3 0 r h) = xk (ix3 b (tilePos j r) h))
    (h3 : ∀ (k : Fin 2048) (o : Fin 1024), x3 (ix2 k o)
        = if hk : k.val < 1024 then wq (ix2 o ⟨k.val, hk⟩) else wk (ix2 o ⟨k.val - 1024, by have := k.isLt; omega⟩))
    (h4 : ∀ o : Fin 1024, x4 (ix1 o) = bq (ix1 o) + bk (ix1 o))
    (h5 : ∀ o : Fin 1024, x5 (ix2 0 o) = wz (ix2 0 o)) (h6 : x6 (ix1 0) = bz (ix1 0)) (hw : wd = len (ix1 b)) (r : Fin 512) :
    tsc i x0 x1 x3 x4 x5 x6 wd r = score xq xk len wq wk bq bk wz bz b (tilePos j r) := by
  unfold tsc k0_pay12
  show Scalar.select (k0_pay11 (F := Ideal) i wd (ix2 r 0)) (Ideal.ofBits .f32 0xCE6E6B28#32) (k0_pay10 x0 x1 x3 x4 x5 x6 (ix2 r 0)) = _
  rw [pay11_apply i wd j hi1 r, pay10_apply, hw]
  unfold score maskBit raw neg
  refine congrArg (Scalar.select _ _) ?_
  refine congrArg₂ (· + ·) (Finset.sum_congr rfl fun o _ => ?_) h6
  rw [proj_eq x0 x1 x3 x4 xq xk wq wk bq bk b j h0 h1 h3 h4 r o, h5 o]

end Cert.KernelIdeal.Tile

end
-- ==== Proof.GridPoint.lean ====
/-
  A grid point t of the 32 × 4 grid is batch t / 4, tile t % 4.
-/
import proofs.«416368_j68539088109695_2_alg».proof.Proof.Gen.KernelIdeal.Frame.Runs

noncomputable section

open Idealize.ShloMosaic Idealize.ShloMosaic.TcCoe Idealize.SL.Sem

namespace Cert.KernelIdeal.Blocks

open Cert.KernelIdeal Cert.KernelIdeal.Gen

variable {F : FTy → Type} [FloatOps F]
variable (m : (ℓ : Loc nD τ sig) → Buf (Elt F) ℓ) (hO : Ok m)

/-- The batch of grid point `t`. -/
def bOf (t : Fin (cfgM m hO).N) : Fin 32 := ⟨t.val / 4, by have := t.isLt; have h : (cfgM m hO).N = 128 := N_0; omega⟩
/-- The tile of grid point `t`. -/
def jOf (t : Fin (cfgM m hO).N) : Fin 4 := ⟨t.val % 4, by omega⟩

end Cert.KernelIdeal.Blocks

end
-- ==== Proof.KernelBlocks.lean ====
/-
  What the body's inputs are at grid point t = 4·b + j, in terms of the program's arguments:
  the query, key and value blocks are rows 512·j … 512·j + 511 of batch b; the stacked weight matrix is
  [Wqᵀ ; Wkᵀ] (its format change is the identity on extended reals); the bias is bq + bk; the score
  weights and bias are the arguments themselves; and the prefetched word is lengths[b].
-/
import proofs.«416368_j68539088109695_2_alg».proof.Proof.KernelStep
import proofs.«416368_j68539088109695_2_alg».proof.Proof.GridPoint
import proofs.«416368_j68539088109695_2_alg».proof.Proof.Math
import Idealize.ShloMosaic.Lib.Pipeline.Value
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Cert.KernelIdeal.Step Cert.Attn Idealize.ShloMosaic.ValueIdx

variable (m : (ℓ : Loc nD τ sig) → Buf (Elt Ideal) ℓ) (hO : Ok m) (c : Dev nD)

variable (t : Fin (cfgM m hO).N)

theorem coords0 : ((grid0.coords t) 0).val = t.val / 4 :=
  (by decide +kernel : ∀ t : Fin grid0.N, ((grid0.coords t) 0).val = t.val / 4) t

theorem coords1 : ((grid0.coords t) 1).val = t.val % 4 :=
  (by decide +kernel : ∀ t : Fin grid0.N, ((grid0.coords t) 1).val = t.val % 4) t

/-- The block indices of the three tiled windows at grid point `t`: batch `t / 4`, tile `t % 4`, feature block 0. -/
private theorem idx_facts0 : ∀ t : Fin grid0.N, cc0_transform_0 (grid0.coords t) 0 = t.val / 4
    ∧ cc0_transform_0 (grid0.coords t) 1 = t.val % 4 ∧ cc0_transform_0 (grid0.coords t) 2 = 0 := by
  decide +kernel
private theorem idx_facts1 : ∀ t : Fin grid0.N, cc0_transform_1 (grid0.coords t) 0 = t.val / 4
    ∧ cc0_transform_1 (grid0.coords t) 1 = t.val % 4 ∧ cc0_transform_1 (grid0.coords t) 2 = 0 := by
  decide +kernel
private theorem idx_facts2 : ∀ t : Fin grid0.N, cc0_transform_2 (grid0.coords t) 0 = t.val / 4
    ∧ cc0_transform_2 (grid0.coords t) 1 = t.val % 4 ∧ cc0_transform_2 (grid0.coords t) 2 = 0 := by
  decide +kernel

/-- The query block. -/
theorem iblk0_apply (r : Fin 512) (h : Fin 1024) :
    (iblk m hO c 0 t : Vec Ideal S1x512x1024 .f32) (ix3 0 r h)
      = m ((c.tc : Thread nD τ).loc main_arg0) (ix3 (bOf m hO t) (tilePos (jOf m hO t) r) h) := by
  have hi := idx_facts0 t
  unfold iblk
  show V m c main_arg0 _ = m (c.tc.loc main_arg0) _
  rw [V_main_arg0]
  congr 1
  funext a
  apply Fin.ext
  match a with
  | ⟨0, _⟩ => show cc0_transform_0 (grid0.coords t) 0 * 1 + 1 * 0 = t.val / 4; rw [hi.1]; omega
  | ⟨1, _⟩ => show cc0_transform_0 (grid0.coords t) 1 * 512 + 1 * r.val = 512 * (t.val % 4) + r.val; rw [hi.2.1]; omega
  | ⟨2, _⟩ => show cc0_transform_0 (grid0.coords t) 2 * 1024 + 1 * h.val = h.val; rw [hi.2.2]; omega

/-- The key block. -/
theorem iblk1_apply (r : Fin 512) (h : Fin 1024) :
    (iblk m hO c 1 t : Vec Ideal S1x512x1024 .f32) (ix3 0 r h)
      = m ((c.tc : Thread nD τ).loc main_arg1) (ix3 (bOf m hO t) (tilePos (jOf m hO t) r) h) := by
  have hi := idx_facts1 t
  unfold iblk
  show V m c main_arg1 _ = m (c.tc.loc main_arg1) _
  rw [V_main_arg1]
  congr 1
  funext a
  apply Fin.ext
  match a with
  | ⟨0, _⟩ => show cc0_transform_1 (grid0.coords t) 0 * 1 + 1 * 0 = t.val / 4; rw [hi.1]; omega
  | ⟨1, _⟩ => show cc0_transform_1 (grid0.coords t) 1 * 512 + 1 * r.val = 512 * (t.val % 4) + r.val; rw [hi.2.1]; omega
  | ⟨2, _⟩ => show cc0_transform_1 (grid0.coords t) 2 * 1024 + 1 * h.val = h.val; rw [hi.2.2]; omega

/-- The value block. -/
theorem iblk2_apply (r : Fin 512) (h : Fin 1024) :
    (iblk m hO c 2 t : Vec Ideal S1x512x1024 .f32) (ix3 0 r h)
      = m ((c.tc : Thread nD τ).loc main_arg2) (ix3 (bOf m hO t) (tilePos (jOf m hO t) r) h) := by
  have hi := idx_facts2 t
  unfold iblk
  show V m c main_arg2 _ = m (c.tc.loc main_arg2) _
  rw [V_main_arg2]
  congr 1
  funext a
  apply Fin.ext
  match a with
  | ⟨0, _⟩ => show cc0_transform_2 (grid0.coords t) 0 * 1 + 1 * 0 = t.val / 4; rw [hi.1]; omega
  | ⟨1, _⟩ => show cc0_transform_2 (grid0.coords t) 1 * 512 + 1 * r.val = 512 * (t.val % 4) + r.val; rw [hi.2.1]; omega
  | ⟨2, _⟩ => show cc0_transform_2 (grid0.coords t) 2 * 1024 + 1 * h.val = h.val; rw [hi.2.2]; omega

/-- The stacked weight array as the region finds it: the two transposed weight matrices, one above the other. -/
private theorem V_v3 : @Eq (S2048x1024.Idx → EReal) (V m c main_v3)
    (truncf (F := Ideal) (φ := .f32) .bf16 (concatenate (α := EReal) S2048x1024 0
        [⟨S1024x1024, transpose S1024x1024 [1, 0] (m ((c.tc : Thread nD τ).loc main_arg4)) transposes_S1024x1024_S1024x1024_1_0⟩,
         ⟨S1024x1024, transpose S1024x1024 [1, 0] (m ((c.tc : Thread nD τ).loc main_arg6)) transposes_S1024x1024_S1024x1024_1_0⟩]
        concatenates_S1024x1024_S1024x1024_S2048x1024_d0) bitsLt_bf16_f32) := by
  dsimp only [V, V0]
  simp only [hostOps0, List.flatten_cons, List.flatten_nil, List.append_nil]
  after_results
  try rfl

/-- The summed bias array as the region finds it. -/
private theorem V_v4 : @Eq (S1024.Idx → EReal) (V m c main_v4)
    (addf (F := Ideal) (s := S1024) (φ := .f32) (m ((c.tc : Thread nD τ).loc main_arg5)) (m ((c.tc : Thread nD τ).loc main_arg7))) := by
  dsimp only [V, V0]
  simp only [hostOps0, List.flatten_cons, List.flatten_nil, List.append_nil]
  after_results
  try rfl

/-- The stacked weights: row k is column k of Wq for k < 1024, column k − 1024 of Wk otherwise. -/
theorem iblk3_apply (k : Fin 2048) (o : Fin 1024) :
    (iblk m hO c 3 t : Vec Ideal S2048x1024 .bf16) (ix2 k o)
      = if hk : k.val < 1024 then m ((c.tc : Thread nD τ).loc main_arg4) (ix2 o ⟨k.val, hk⟩)
        else m ((c.tc : Thread nD τ).loc main_arg6) (ix2 o ⟨k.val - 1024, by have := k.isLt; omega⟩) := by
  unfold iblk
  show V m c main_v3 _ = _
  have hidx : (((cfgM m hO).win 3).blk t).view.emb (ix2 k o) = (ix2 k o : S2048x1024.Idx) :=
    funext fun a => Fin.ext (by
      match a with
      | ⟨0, _⟩ => show 0 * 2048 + 1 * k.val = k.val; omega
      | ⟨1, _⟩ => show 0 * 1024 + 1 * o.val = o.val; omega)
  refine (congrArg (V m c main_v3) hidx).trans ?_
  refine (congrFun (V_v3 m c) (ix2 k o)).trans ?_
  rw [truncf_apply]
  by_cases hk : k.val < 1024
  · rw [dif_pos hk]
    refine (concatenate_pair_apply_left (t := S2048x1024) (s₁ := S1024x1024) (s₂ := S1024x1024) (0 : Fin 2) _ _ _ (ix2 k o) rfl (ix2 ⟨k.val, hk⟩ o) ?_).trans ?_
    · intro b
      match b with
      | ⟨0, _⟩ => rfl
      | ⟨1, _⟩ => rfl
    · exact transpose_apply (s := S1024x1024) (t := S1024x1024) [1, 0] _ _ (ix2 ⟨k.val, hk⟩ o) (ix2 o ⟨k.val, hk⟩) fun b => by
        match b with
        | ⟨0, _⟩ => rfl
        | ⟨1, _⟩ => rfl
  · rw [dif_neg hk]
    have hk2 : k.val - 1024 < 1024 := by have := k.isLt; omega
    refine (concatenate_pair_apply_right (t := S2048x1024) (s₁ := S1024x1024) (s₂ := S1024x1024) (0 : Fin 2) _ _ _ (ix2 k o) rfl rfl (ix2 ⟨k.val - 1024, hk2⟩ o) ?_ ?_).trans ?_
    · intro b hb
      match b, hb with
      | ⟨0, _⟩, hb => exact absurd rfl hb
      | ⟨1, _⟩, _ => rfl
    · show k.val - 1024 + 1024 = k.val
      omega
    · exact transpose_apply (s := S1024x1024) (t := S1024x1024) [1, 0] _ _ (ix2 ⟨k.val - 1024, hk2⟩ o) (ix2 o ⟨k.val - 1024, hk2⟩) fun b => by
        match b with
        | ⟨0, _⟩ => rfl
        | ⟨1, _⟩ => rfl

/-- The summed bias. -/
theorem iblk4_apply (o : Fin 1024) :
    (iblk m hO c 4 t : Vec Ideal S1024 .f32) (ix1 o)
      = (addf (F := Ideal) (s := S1024) (φ := .f32) (m ((c.tc : Thread nD τ).loc main_arg5)) (m ((c.tc : Thread nD τ).loc main_arg7)) : Vec Ideal S1024 .f32) (ix1 o) := by
  unfold iblk
  show V m c main_v4 _ = _
  have hidx : (((cfgM m hO).win 4).blk t).view.emb (ix1 o) = (ix1 o : S1024.Idx) :=
    funext fun a => Fin.ext (by
      match a with
      | ⟨0, _⟩ => show 0 * 1024 + 1 * o.val = o.val; omega)
  refine (congrArg (V m c main_v4) hidx).trans ?_
  exact congrFun (V_v4 m c) (ix1 o)

/-- The score weights. -/
theorem iblk5_apply (o : Fin 1024) :
    (iblk m hO c 5 t : Vec Ideal S1x1024 .f32) (ix2 0 o) = m ((c.tc : Thread nD τ).loc main_arg8) (ix2 0 o) := by
  unfold iblk
  show V m c main_arg8 _ = m (c.tc.loc main_arg8) _
  rw [V_main_arg8]
  congr 1
  funext a
  apply Fin.ext
  match a with
  | ⟨0, _⟩ => show 0 * 1 + 1 * 0 = 0; rfl
  | ⟨1, _⟩ => show 0 * 1024 + 1 * o.val = o.val; omega

/-- The score bias. -/
theorem iblk6_apply :
    (iblk m hO c 6 t : Vec Ideal S1 .f32) (ix1 0) = m ((c.tc : Thread nD τ).loc main_arg9) (ix1 0) := by
  unfold iblk
  show V m c main_arg9 _ = m (c.tc.loc main_arg9) _
  rw [V_main_arg9]
  congr 1
  funext a
  apply Fin.ext
  match a with
  | ⟨0, _⟩ => show 0 * 1 + 1 * 0 = 0; rfl

/-- The offset of the table word the body loads at grid point `t` is the batch `t / 4`. -/
private theorem off_facts : ∀ t : Fin grid0.N, k0_off1 (grid0.coords t) 0 = t.val / 4 := by
  decide +kernel

/-- The prefetched word is lengths[b]. -/
theorem lenWord_eq :
    lenWord c (grid0.coords t) (tbl m 0) = m ((c.tc : Thread nD τ).loc main_arg3) (ix1 (bOf m hO t)) := by
  obtain rfl : c = 0 := Subsingleton.elim _ _
  unfold lenWord tbl
  show V m 0 main_arg3 _ = m ((0 : Dev nD).tc.loc main_arg3) _
  rw [V_main_arg3]
  congr 1
  funext a
  apply Fin.ext
  match a with
  | ⟨0, _⟩ => show k0_off1 (grid0.coords t) 0 + 1 * 0 = t.val / 4; rw [off_facts t]; omega

end Cert.KernelIdeal.Blocks

end
-- ==== Proof.KernelInv.lean ====
/-
  The kernel's grid points, one after the other, carry the online-softmax invariant.

  Grid point t = 4·b + j runs tile j of batch b.  The first tile of a batch starts from the reset state, a
  middle tile from what the tile before left; after tile j the running state is the partial softmax data of
  the first 512·(j + 1) time steps of batch b, shifted by the current maximum.  The last tile also divides by
  the full sum, which leaves exactly the softmax weights of batch b and the attended value.
-/
import proofs.«416368_j68539088109695_2_alg».proof.Proof.PiecesA
import proofs.«416368_j68539088109695_2_alg».proof.Proof.PiecesB
import proofs.«416368_j68539088109695_2_alg».proof.Proof.PiecesC
import proofs.«416368_j68539088109695_2_alg».proof.Proof.TileStep
import proofs.«416368_j68539088109695_2_alg».proof.Proof.TileScore
import proofs.«416368_j68539088109695_2_alg».proof.Proof.KernelBlocks

set_option maxRecDepth 16384

noncomputable section

open Idealize.ShloMosaic Idealize.ShloMosaic.TcCoe Idealize.SL.Sem

namespace Cert.KernelIdeal.Inv

open Cert.KernelIdeal Cert.KernelIdeal.Gen Cert.KernelIdeal.Step Cert.KernelIdeal.Tile Cert.KernelIdeal.Blocks
open Cert.KernelIdeal.Pieces Cert.Attn Idealize.ShloMosaic.ValueIdx

variable (m : (ℓ : Loc nD τ sig) → Buf (Elt Ideal) ℓ) (hO : Ok m) (c : Dev nD)

/-- The masked scores of Spec at the kernel's arguments. -/
abbrev sc : Fin 32 → Fin 2048 → EReal :=
  score (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) (m ((c.tc : Thread nD τ).loc main_arg5)) (m ((c.tc : Thread nD τ).loc main_arg7)) (m ((c.tc : Thread nD τ).loc main_arg8)) (m ((c.tc : Thread nD τ).loc main_arg9))

/-- The value argument. -/
abbrev av : SQ.Idx → EReal := m ((c.tc : Thread nD τ).loc main_arg2)

/-- The blocks the body reads at grid point `t`, at their literal types. -/
abbrev X0 (t : Fin (cfgM m hO).N) : Vec Ideal S1x512x1024 .f32 := iblk m hO c 0 t
abbrev X1 (t : Fin (cfgM m hO).N) : Vec Ideal S1x512x1024 .f32 := iblk m hO c 1 t
abbrev X2 (t : Fin (cfgM m hO).N) : Vec Ideal S1x512x1024 .f32 := iblk m hO c 2 t
abbrev X3 (t : Fin (cfgM m hO).N) : Vec Ideal S2048x1024 .bf16 := iblk m hO c 3 t
abbrev X4 (t : Fin (cfgM m hO).N) : Vec Ideal S1024 .f32 := iblk m hO c 4 t
abbrev X5 (t : Fin (cfgM m hO).N) : Vec Ideal S1x1024 .f32 := iblk m hO c 5 t
abbrev X6 (t : Fin (cfgM m hO).N) : Vec Ideal S1 .f32 := iblk m hO c 6 t
abbrev WD (t : Fin (cfgM m hO).N) : Elt Ideal .i32 := lenWord c (grid0.coords t) (tbl m 0)

/-- The tile's scores and values at grid point `t`. -/
abbrev tscAt (t : Fin (cfgM m hO).N) : Fin 512 → EReal :=
  tsc (grid0.coords t) (X0 m hO c t) (X1 m hO c t) (X3 m hO c t) (X4 m hO c t) (X5 m hO c t) (X6 m hO c t) (WD m hO c t)
abbrev tvalAt (t : Fin (cfgM m hO).N) : Fin 512 → Fin 1024 → EReal := tval (X2 m hO c t)

/-- The running state after grid point `n`. -/
def stOf (n : ℕ) (hn : n < (cfgM m hO).N) : TileState :=
  toState (outsAt0 m hO c n hn).2.2.1 (outsAt0 m hO c n hn).2.2.2.1 (outsAt0 m hO c n hn).2.2.2.2 (outsAt0 m hO c n hn).2.1

/-- First tile of a batch: the step from the reset state. -/
theorem caseA (t : Fin (cfgM m hO).N) (h0 : t.val % 4 = 0) (h1 : ¬t.val % 4 = 3) :
    stOf m hO c t.val t.isLt = step (jOf m hO t) (tscAt m hO c t) (tvalAt m hO c t) reset := by
  unfold stOf
  rw [outsAt0_A m hO c t h0 h1]
  dsimp only
  rw [sout_A_0 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0), sout_A_1 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0), sout_A_2 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0), out_A_8 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0)]
  rw [← reset_state]
  exact step_state (grid0.coords t) (X0 m hO c t) (X1 m hO c t) (X2 m hO c t) (X3 m hO c t) (X4 m hO c t) (X5 m hO c t) (X6 m hO c t) (WD m hO c t)
    (jOf m hO t) (coords1 m hO t) (k0_pay7 (F := Ideal)) (k0_pay8 (F := Ideal)) (k0_pay9 (F := Ideal)) (k0_pay6 (F := Ideal))

/-- A middle tile: the step from the state the point before left. -/
theorem caseB (t : Fin (cfgM m hO).N) (h0 : ¬t.val % 4 = 0) (h1 : ¬t.val % 4 = 3) :
    stOf m hO c t.val t.isLt
      = step (jOf m hO t) (tscAt m hO c t) (tvalAt m hO c t) (stOf m hO c (t.val - 1) (Nat.lt_of_le_of_lt (Nat.sub_le _ _) t.isLt)) := by
  unfold stOf
  rw [outsAt0_B m hO c t h0 h1]
  dsimp only
  rw [sout_B_0 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2, sout_B_1 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2, sout_B_2 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2, out_B_8 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2]
  exact step_state (grid0.coords t) (X0 m hO c t) (X1 m hO c t) (X2 m hO c t) (X3 m hO c t) (X4 m hO c t) (X5 m hO c t) (X6 m hO c t) (WD m hO c t)
    (jOf m hO t) (coords1 m hO t) (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2 (outsAt0 m hO c (t.val - 1) (Nat.lt_of_le_of_lt (Nat.sub_le _ _) t.isLt)).2.1

/-- The last tile: the step from the state the point before left, then the division by the sum. -/
theorem caseC (t : Fin (cfgM m hO).N) (h0 : ¬t.val % 4 = 0) (h1 : t.val % 4 = 3) :
    (∀ h : Fin 1024, ((outsAt0 m hO c t.val t.isLt).1 : Vec Ideal S1x1x1024 .f32) (ix3 0 0 h)
        = finishV (step (jOf m hO t) (tscAt m hO c t) (tvalAt m hO c t) (stOf m hO c (t.val - 1) (Nat.lt_of_le_of_lt (Nat.sub_le _ _) t.isLt))) h)
    ∧ (∀ u : Fin 2048, ((outsAt0 m hO c t.val t.isLt).2.1 : Vec Ideal S1x1x2048 .f32) (ix3 0 0 u)
        = finishW (step (jOf m hO t) (tscAt m hO c t) (tvalAt m hO c t) (stOf m hO c (t.val - 1) (Nat.lt_of_le_of_lt (Nat.sub_le _ _) t.isLt))) u) := by
  have hs := step_state (grid0.coords t) (X0 m hO c t) (X1 m hO c t) (X2 m hO c t) (X3 m hO c t) (X4 m hO c t) (X5 m hO c t) (X6 m hO c t) (WD m hO c t)
    (jOf m hO t) (coords1 m hO t) (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2 (outsAt0 m hO c (t.val - 1) (Nat.lt_of_le_of_lt (Nat.sub_le _ _) t.isLt)).2.1
  rw [outsAt0_C m hO c t h0 h1]
  dsimp only
  rw [out_C_7 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2, out_C_8 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2]
  unfold stOf
  rw [← hs]
  exact ⟨fun h => finV_apply _ _ h, fun u => finW_apply _ _ u⟩

/-! ## The induction over the grid points -/

section Induction

/-- The tile's scores are the real scores of its rows. -/
theorem tsc_real (sr : Fin 32 → Fin 2048 → ℝ) (hsr : ∀ b t, sc m c b t = ((sr b t : ℝ) : EReal))
    (t : Fin (cfgM m hO).N) (r : Fin 512) :
    tscAt m hO c t r = ((sr (bOf m hO t) (tilePos (jOf m hO t) r) : ℝ) : EReal) := by
  rw [← hsr]
  exact tsc_eq_score (grid0.coords t) (X0 m hO c t) (X1 m hO c t) (X3 m hO c t) (X4 m hO c t) (X5 m hO c t) (X6 m hO c t) (WD m hO c t)
    (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) (m ((c.tc : Thread nD τ).loc main_arg5)) (m ((c.tc : Thread nD τ).loc main_arg7)) (m ((c.tc : Thread nD τ).loc main_arg8)) (m ((c.tc : Thread nD τ).loc main_arg9))
    (bOf m hO t) (jOf m hO t) (coords1 m hO t) (iblk0_apply m hO c t) (iblk1_apply m hO c t) (iblk3_apply m hO c t)
    (fun o => iblk4_apply m hO c t o) (iblk5_apply m hO c t) (iblk6_apply m hO c t) (lenWord_eq m hO c t) r

/-- The tile's values are the real values of its rows. -/
theorem tval_real (vr : SQ.Idx → ℝ) (hvr : ∀ i, av m c i = ((vr i : ℝ) : EReal))
    (t : Fin (cfgM m hO).N) (r : Fin 512) (h : Fin 1024) :
    tvalAt m hO c t r h = ((vr (ix3 (bOf m hO t) (tilePos (jOf m hO t) r) h) : ℝ) : EReal) := by
  rw [← hvr]
  exact iblk2_apply m hO c t r h

/-- After tile j of batch b the state is the partial softmax data of the first 512·(j + 1) time steps. -/
theorem inv_at (sr : Fin 32 → Fin 2048 → ℝ) (vr : SQ.Idx → ℝ)
    (hsr : ∀ b t, sc m c b t = ((sr b t : ℝ) : EReal)) (hvr : ∀ i, av m c i = ((vr i : ℝ) : EReal)) : ∀ (n : ℕ) (hn : n < (cfgM m hO).N), n % 4 ≠ 3 →
    Inv (sr (bOf m hO ⟨n, hn⟩)) (fun u h => vr (ix3 (bOf m hO ⟨n, hn⟩) u h)) (n % 4 + 1) (stOf m hO c n hn) := by
  intro n
  induction n with
  | zero =>
    intro hn _
    rw [caseA m hO c ⟨0, hn⟩ rfl (by show ¬(0 % 4 = 3); decide)]
    exact inv_step _ _ (jOf m hO ⟨0, hn⟩) _ _ reset (tsc_real m hO c sr hsr ⟨0, hn⟩) (tval_real m hO c vr hvr ⟨0, hn⟩)
      (inv_reset _ _)
  | succ n ih =>
    intro hn h3
    by_cases h0 : (n + 1) % 4 = 0
    · rw [caseA m hO c ⟨n + 1, hn⟩ h0 h3]
      have hst : Inv (sr (bOf m hO ⟨n + 1, hn⟩)) (fun u h => vr (ix3 (bOf m hO ⟨n + 1, hn⟩) u h)) (jOf m hO ⟨n + 1, hn⟩).val reset := by
        rw [show (jOf m hO ⟨n + 1, hn⟩).val = 0 from h0]; exact inv_reset _ _
      have hk : (n + 1) % 4 + 1 = (jOf m hO ⟨n + 1, hn⟩).val + 1 := rfl
      rw [hk]
      exact inv_step _ _ (jOf m hO ⟨n + 1, hn⟩) _ _ reset (tsc_real m hO c sr hsr ⟨n + 1, hn⟩)
        (tval_real m hO c vr hvr ⟨n + 1, hn⟩) hst
    · rw [caseB m hO c ⟨n + 1, hn⟩ h0 h3]
      have hn' : n < (cfgM m hO).N := Nat.lt_of_succ_lt hn
      have hp := ih hn' (by omega)
      have hb : bOf m hO ⟨n, hn'⟩ = bOf m hO ⟨n + 1, hn⟩ := Fin.ext (by show n / 4 = (n + 1) / 4; omega)
      rw [hb, show n % 4 + 1 = (jOf m hO ⟨n + 1, hn⟩).val from (by show n % 4 + 1 = (n + 1) % 4; omega)] at hp
      have hk : (n + 1) % 4 + 1 = (jOf m hO ⟨n + 1, hn⟩).val + 1 := rfl
      rw [hk]
      exact inv_step _ _ (jOf m hO ⟨n + 1, hn⟩) _ _ _ (tsc_real m hO c sr hsr ⟨n + 1, hn⟩)
        (tval_real m hO c vr hvr ⟨n + 1, hn⟩) hp

/-- After the last tile of batch b the two output blocks hold the attended value and the weights of batch b. -/
theorem final (sr : Fin 32 → Fin 2048 → ℝ) (vr : SQ.Idx → ℝ)
    (hsr : ∀ b t, sc m c b t = ((sr b t : ℝ) : EReal)) (hvr : ∀ i, av m c i = ((vr i : ℝ) : EReal))
    (t : Fin (cfgM m hO).N) (h3 : t.val % 4 = 3) :
    ((outsAt0 m hO c t.val t.isLt).1 : Vec Ideal S1x1x1024 .f32)
        = (fun y => attended (sc m c) (av m c) (bOf m hO t) (y 2))
    ∧ ((outsAt0 m hO c t.val t.isLt).2.1 : Vec Ideal S1x1x2048 .f32)
        = (fun y => weight (sc m c) (bOf m hO t) (y 2)) := by
  obtain ⟨n, hn⟩ := t
  have h3' : n % 4 = 3 := h3
  obtain ⟨hV, hW⟩ := caseC m hO c ⟨n, hn⟩ (by show ¬n % 4 = 0; omega) h3
  have hn' : n - 1 < (cfgM m hO).N := Nat.lt_of_le_of_lt (Nat.sub_le _ _) hn
  have hp := inv_at m hO c sr vr hsr hvr (n - 1) hn' (by omega)
  have hb : bOf m hO ⟨n - 1, hn'⟩ = bOf m hO ⟨n, hn⟩ := Fin.ext (by show (n - 1) / 4 = n / 4; omega)
  rw [hb, show (n - 1) % 4 + 1 = (jOf m hO ⟨n, hn⟩).val from (by show (n - 1) % 4 + 1 = n % 4; omega)] at hp
  have h4 := inv_step _ _ (jOf m hO ⟨n, hn⟩) _ _ _ (tsc_real m hO c sr hsr ⟨n, hn⟩) (tval_real m hO c vr hvr ⟨n, hn⟩) hp
  rw [show (jOf m hO ⟨n, hn⟩).val + 1 = 4 from (by show n % 4 + 1 = 4; omega)] at h4
  obtain ⟨fV, fW⟩ := inv_finish (sc m c) (av m c) (bOf m hO ⟨n, hn⟩) (sr (bOf m hO ⟨n, hn⟩))
    (fun u h => vr (ix3 (bOf m hO ⟨n, hn⟩) u h)) (hsr _) (fun u h => hvr _) _ h4
  constructor
  · funext y
    have hy : y = ix3 0 0 (y 2) := by
      funext a
      match a with
      | ⟨0, _⟩ => exact Fin.ext (Nat.lt_one_iff.mp (y 0).isLt)
      | ⟨1, _⟩ => exact Fin.ext (Nat.lt_one_iff.mp (y 1).isLt)
      | ⟨2, _⟩ => rfl
    rw [hy]
    exact (hV (y 2)).trans (fV (y 2))
  · funext y
    have hy : y = ix3 0 0 (y 2) := by
      funext a
      match a with
      | ⟨0, _⟩ => exact Fin.ext (Nat.lt_one_iff.mp (y 0).isLt)
      | ⟨1, _⟩ => exact Fin.ext (Nat.lt_one_iff.mp (y 1).isLt)
      | ⟨2, _⟩ => rfl
    rw [hy]
    exact (hW (y 2)).trans (fW (y 2))

end Induction

end Cert.KernelIdeal.Inv

end
-- ==== Proof.KernelFinal.lean ====
/-
  From the last tile of every batch to the result arrays.

  The attended value's block (b, 0, ·) and the weight row's block (b, 0, ·) are written back once per batch,
  after the batch's last tile, and the 32 blocks tile each array; so the arrays end holding, at (b, 0, h) and
  (b, 0, u), what the last tile of batch b left.  The program's second result is the weight array with its last
  two axes exchanged.
-/
import proofs.«416368_j68539088109695_2_alg».proof.Proof.GridPoint
import proofs.«416368_j68539088109695_2_alg».proof.Proof.Spec
import proofs.«416368_j68539088109695_2_alg».proof.Proof.Gen.KernelIdeal.Frame
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Blocks Cert.Attn Idealize.ShloMosaic.ValueIdx

variable (m : (ℓ : Loc nD τ sig) → Buf (Elt Ideal) ℓ) (ρ : Dev nD → PrngReg) (hO : Ok m)

/-- The block index of the attended value's window at grid point t is (t / 4, 0, 0). -/
theorem index_attended : ∀ t : Fin grid0.N, cc0_transform_7 (grid0.coords t) 0 = t.val / 4
    ∧ cc0_transform_7 (grid0.coords t) 1 = 0 ∧ cc0_transform_7 (grid0.coords t) 2 = 0 := by decide +kernel

/-- The block index of the weight row's window at grid point t is (t / 4, 0, 0). -/
theorem index_weight : ∀ t : Fin grid0.N, cc0_transform_8 (grid0.coords t) 0 = t.val / 4
    ∧ cc0_transform_8 (grid0.coords t) 1 = 0 ∧ cc0_transform_8 (grid0.coords t) 2 = 0 := by decide +kernel

section Arrays

variable (A : Dev nD → Fin 32 → Fin 1024 → EReal) (W : Dev nD → Fin 32 → Fin 2048 → EReal)

/-- The attended-value array, [32, 1, 1024]. -/
abbrev attendedArr (c : Dev nD) : Buf (Elt Ideal) ((c.tc : Thread nD τ).loc main_v5_0) :=
  fun i : S32x1x1024.Idx => A c (i 0) (i 2)

/-- The weight array before its axes are exchanged, [32, 1, 2048]. -/
abbrev weightArr (c : Dev nD) : Buf (Elt Ideal) ((c.tc : Thread nD τ).loc main_v5_1) :=
  fun i : S32x1x2048.Idx => W c (i 0) (i 2)

theorem flushed_attended
    (hfin : ∀ (c : Dev nD) (t : Fin (cfgM m hO).N), t.val % 4 = 3 →
      ((outsAt0 m hO c t.val t.isLt).1 : Vec Ideal S1x1x1024 .f32) = (fun y => A c (bOf m hO t) (y 2))
      ∧ ((outsAt0 m hO c t.val t.isLt).2.1 : Vec Ideal S1x1x2048 .f32) = (fun y => W c (bOf m hO t) (y 2)))
    (c : Dev nD) (t : Fin (cfgM m hO).N) (hf : ((cfgM m hO).win 7).flush t = true) :
    (dats m hO 0 c).flushed 7 t = (((cfgM m hO).win 7).blk t).view.read (Elt Ideal) (attendedArr A c) := by
  have h3 : t.val % 4 = 3 := (flush0_7 (adm m hO) t).mp hf
  show ((cfgM m hO).win 7).cut ((cfgM m hO).grid.coords t) ((dats m hO 0 c).after 7 t) = _
  rw [after0_7, (hfin c t h3).1]
  funext y
  show A c (bOf m hO t) _ = A c _ _
  obtain ⟨i0, i1, i2⟩ := index_attended t
  refine congrArg₂ (A c) (Fin.ext ?_) (Fin.ext ?_)
  · have hy : (y (0 : Fin 3)).val < 1 := (y (0 : Fin 3)).isLt
    show t.val / 4 = cc0_transform_7 (grid0.coords t) 0 * 1 + 1 * (y (0 : Fin 3)).val
    rw [i0]; omega
  · show (y (2 : Fin 3)).val = cc0_transform_7 (grid0.coords t) 2 * 1024 + 1 * (y (2 : Fin 3)).val
    rw [i2]; omega

theorem flushed_weight
    (hfin : ∀ (c : Dev nD) (t : Fin (cfgM m hO).N), t.val % 4 = 3 →
      ((outsAt0 m hO c t.val t.isLt).1 : Vec Ideal S1x1x1024 .f32) = (fun y => A c (bOf m hO t) (y 2))
      ∧ ((outsAt0 m hO c t.val t.isLt).2.1 : Vec Ideal S1x1x2048 .f32) = (fun y => W c (bOf m hO t) (y 2)))
    (c : Dev nD) (t : Fin (cfgM m hO).N) (hf : ((cfgM m hO).win 8).flush t = true) :
    (dats m hO 0 c).flushed 8 t = (((cfgM m hO).win 8).blk t).view.read (Elt Ideal) (weightArr W c) := by
  have h3 : t.val % 4 = 3 := (flush0_8 (adm m hO) t).mp hf
  show ((cfgM m hO).win 8).cut ((cfgM m hO).grid.coords t) ((dats m hO 0 c).after 8 t) = _
  rw [after0_8, (hfin c t h3).2]
  funext y
  show W c (bOf m hO t) _ = W c _ _
  obtain ⟨i0, i1, i2⟩ := index_weight t
  refine congrArg₂ (W c) (Fin.ext ?_) (Fin.ext ?_)
  · have hy : (y (0 : Fin 3)).val < 1 := (y (0 : Fin 3)).isLt
    show t.val / 4 = cc0_transform_8 (grid0.coords t) 0 * 1 + 1 * (y (0 : Fin 3)).val
    rw [i0]; omega
  · show (y (2 : Fin 3)).val = cc0_transform_8 (grid0.coords t) 2 * 2048 + 1 * (y (2 : Fin 3)).val
    rw [i2]; omega

/-- Every index (b, 0, h) of the attended-value array lies in the block written back after batch b's last tile. -/
theorem cover_attended (i : S32x1x1024.Idx) :
    ∃ t : Fin (cfgM m hO).N, ((cfgM m hO).win 7).flush t = true ∧ i ∈ (((cfgM m hO).win 7).blk t).view.set := by
  have hN : (cfgM m hO).N = 128 := N_0
  have h0 : (i 0).val < 32 := (i 0).isLt
  have h1 : (i 1).val < 1 := (i 1).isLt
  have h2 : (i 2).val < 1024 := (i 2).isLt
  obtain ⟨t, ht⟩ : ∃ t : Fin (cfgM m hO).N, t.val = 4 * (i 0).val + 3 := ⟨⟨4 * (i 0).val + 3, by omega⟩, rfl⟩
  refine ⟨t, (flush0_7 (adm m hO) t).mpr (by omega), ?_⟩
  obtain ⟨i0, i1, i2⟩ := index_attended t
  refine Eq.mpr (congrArg (fun s => i ∈ s) (View.set_slice_whole main_v5_0 (((cfgM m hO).win 7).rect t))) ?_
  refine Rect.mem_set_unit.mpr fun a => ?_
  match a with
  | ⟨0, _⟩ =>
    show cc0_transform_7 (grid0.coords t) 0 * 1 ≤ (i 0).val ∧ (i 0).val < cc0_transform_7 (grid0.coords t) 0 * 1 + 1
    rw [i0]; omega
  | ⟨1, _⟩ =>
    show cc0_transform_7 (grid0.coords t) 1 * 1 ≤ (i 1).val ∧ (i 1).val < cc0_transform_7 (grid0.coords t) 1 * 1 + 1
    rw [i1]; omega
  | ⟨2, _⟩ =>
    show cc0_transform_7 (grid0.coords t) 2 * 1024 ≤ (i 2).val ∧ (i 2).val < cc0_transform_7 (grid0.coords t) 2 * 1024 + 1024
    rw [i2]; omega

/-- Every index (b, 0, u) of the weight array lies in the block written back after batch b's last tile. -/
theorem cover_weight (i : S32x1x2048.Idx) :
    ∃ t : Fin (cfgM m hO).N, ((cfgM m hO).win 8).flush t = true ∧ i ∈ (((cfgM m hO).win 8).blk t).view.set := by
  have hN : (cfgM m hO).N = 128 := N_0
  have h0 : (i 0).val < 32 := (i 0).isLt
  have h1 : (i 1).val < 1 := (i 1).isLt
  have h2 : (i 2).val < 2048 := (i 2).isLt
  obtain ⟨t, ht⟩ : ∃ t : Fin (cfgM m hO).N, t.val = 4 * (i 0).val + 3 := ⟨⟨4 * (i 0).val + 3, by omega⟩, rfl⟩
  refine ⟨t, (flush0_8 (adm m hO) t).mpr (by omega), ?_⟩
  obtain ⟨i0, i1, i2⟩ := index_weight t
  refine Eq.mpr (congrArg (fun s => i ∈ s) (View.set_slice_whole main_v5_1 (((cfgM m hO).win 8).rect t))) ?_
  refine Rect.mem_set_unit.mpr fun a => ?_
  match a with
  | ⟨0, _⟩ =>
    show cc0_transform_8 (grid0.coords t) 0 * 1 ≤ (i 0).val ∧ (i 0).val < cc0_transform_8 (grid0.coords t) 0 * 1 + 1
    rw [i0]; omega
  | ⟨1, _⟩ =>
    show cc0_transform_8 (grid0.coords t) 1 * 1 ≤ (i 1).val ∧ (i 1).val < cc0_transform_8 (grid0.coords t) 1 * 1 + 1
    rw [i1]; omega
  | ⟨2, _⟩ =>
    show cc0_transform_8 (grid0.coords t) 2 * 2048 ≤ (i 2).val ∧ (i 2).val < cc0_transform_8 (grid0.coords t) 2 * 2048 + 2048
    rw [i2]; omega

/-- The attended-value array after the region. -/
theorem final_attended
    (hfin : ∀ (c : Dev nD) (t : Fin (cfgM m hO).N), t.val % 4 = 3 →
      ((outsAt0 m hO c t.val t.isLt).1 : Vec Ideal S1x1x1024 .f32) = (fun y => A c (bOf m hO t) (y 2))
      ∧ ((outsAt0 m hO c t.val t.isLt).2.1 : Vec Ideal S1x1x2048 .f32) = (fun y => W c (bOf m hO t) (y 2)))
    (c : Dev nD) : (dats m hO 0 c).arrAt 7 (cfgM m hO).N = attendedArr A c :=
  (dats m hO 0 c).arrAt_eq_of_cover 7 (attendedArr A c) (fun t hf => flushed_attended m hO A W hfin c t hf)
    (cover_attended m hO)

/-- The weight array after the region. -/
theorem final_weight
    (hfin : ∀ (c : Dev nD) (t : Fin (cfgM m hO).N), t.val % 4 = 3 →
      ((outsAt0 m hO c t.val t.isLt).1 : Vec Ideal S1x1x1024 .f32) = (fun y => A c (bOf m hO t) (y 2))
      ∧ ((outsAt0 m hO c t.val t.isLt).2.1 : Vec Ideal S1x1x2048 .f32) = (fun y => W c (bOf m hO t) (y 2)))
    (c : Dev nD) : (dats m hO 0 c).arrAt 8 (cfgM m hO).N = weightArr W c :=
  (dats m hO 0 c).arrAt_eq_of_cover 8 (weightArr W c) (fun t hf => flushed_weight m hO A W hfin c t hf)
    (cover_weight m hO)

/-- The second result: the weight array with its last two axes exchanged. -/
theorem tail_weight
    (hfin : ∀ (c : Dev nD) (t : Fin (cfgM m hO).N), t.val % 4 = 3 →
      ((outsAt0 m hO c t.val t.isLt).1 : Vec Ideal S1x1x1024 .f32) = (fun y => A c (bOf m hO t) (y 2))
      ∧ ((outsAt0 m hO c t.val t.isLt).2.1 : Vec Ideal S1x1x2048 .f32) = (fun y => W c (bOf m hO t) (y 2)))
    (c : Dev nD) :
    Pipeline.afterTail pcfgs (fun _ => adm m hO) (dats m hO) 0 (V0 m) [hostOps1] c main_v6
      = (fun i : S32x2048x1.Idx => W c (i 0) (i 1)) := by
  unfold Pipeline.afterTail
  show StableHlo.after hostOps1 _ (Proc.devRef .tc main_v6) = _
  after_results
  have hw : Pipeline.withArrays (Pipeline.pin pcfgs (fun _ => adm m hO) 0).spec c (V0 m c)
        (fun w => (dats m hO 0 c).arrAt w (Pipeline.pin pcfgs (fun _ => adm m hO) 0).N) (Proc.devRef .tc main_v5_1)
      = weightArr W c :=
    (Pipeline.withArrays_arr spec0 (launch0 (F := Ideal)).win.arr_inj c _ _ 8).trans (final_weight m hO A W hfin c)
  refine (congrArg (fun x => transpose S32x2048x1 [0, 2, 1] x transposes_S32x1x2048_S32x2048x1_0_2_1) hw).trans ?_
  funext i
  refine (transpose_apply [0, 2, 1] (weightArr W c) transposes_S32x1x2048_S32x2048x1_0_2_1 i
    (ix3 (i 0) (0 : Fin 1) (i 1)) (fun b => ?_)).trans rfl
  match b with
  | ⟨0, _⟩ => rfl
  | ⟨1, _⟩ => rfl
  | ⟨2, _⟩ =>
    have h2 : (i 2).val < 1 := (i 2).isLt
    show (0 : ℕ) = (i 2).val
    omega

end Arrays

/-- If after the last tile of each batch `b` the two output blocks hold `A c b ·` and `W c b ·`, the program ends
    with its first result at `A` read at (b, 0, h), its second at `W` read at (b, t, 0), and its arguments unchanged. -/
theorem run_value (A : Dev nD → Fin 32 → Fin 1024 → EReal) (W : Dev nD → Fin 32 → Fin 2048 → EReal)
    (hfin : ∀ (c : Dev nD) (t : Fin (cfgM m hO).N), t.val % 4 = 3 →
      ((outsAt0 m hO c t.val t.isLt).1 : Vec Ideal S1x1x1024 .f32) = (fun y => A c (bOf m hO t) (y 2))
      ∧ ((outsAt0 m hO c t.val t.isLt).2.1 : Vec Ideal S1x1x2048 .f32) = (fun y => W c (bOf m hO t) (y 2))) :
    θ_run defs (onTc (τ := τ) (main (F := Ideal))) ⟨m, fun _ => 0, ρ⟩ (fun r => ∀ c : Dev nD,
      r.2.mem ((c.tc : Thread nD τ).loc main_v5_0) = (fun i : S32x1x1024.Idx => A c (i 0) (i 2))
      ∧ r.2.mem ((c.tc : Thread nD τ).loc main_v6) = (fun i : S32x2048x1.Idx => W c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  exact (θ_run defs _ _).mono (fun r h c => ⟨((h c).1 7).trans (final_attended m hO A W hfin c),
      ((h c).2 main_v6 (by decide : main_v6 ∈ Pipeline.restRefs sig spec0)).trans (tail_weight m hO A W hfin c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).2 main_arg3 (by decide : main_arg3 ∈ Pipeline.restRefs sig spec0)).trans (W_main_arg3 m hO (dats m hO) c),
      ((h c).2 main_arg4 (by decide : main_arg4 ∈ Pipeline.restRefs sig spec0)).trans (W_main_arg4 m hO (dats m hO) c),
      ((h c).2 main_arg5 (by decide : main_arg5 ∈ Pipeline.restRefs sig spec0)).trans (W_main_arg5 m hO (dats m hO) c),
      ((h c).2 main_arg6 (by decide : main_arg6 ∈ Pipeline.restRefs sig spec0)).trans (W_main_arg6 m hO (dats m hO) c),
      ((h c).2 main_arg7 (by decide : main_arg7 ∈ Pipeline.restRefs sig spec0)).trans (W_main_arg7 m hO (dats m hO) c),
      ((h c).1 5).trans (((dats m hO 0 c).arrAt_in 5 rfl _).trans ((A_eq m hO c 5).trans (V_main_arg8 m c))),
      ((h c).1 6).trans (((dats m hO 0 c).arrAt_in 6 rfl _).trans ((A_eq m hO c 6).trans (V_main_arg9 m c)))⟩)
    (run_main m ρ hO)

end Cert.KernelIdeal.Final

end
-- ==== Proof.RefValue.lean ====
/-
  The reference program read at the extended reals: its two results are the softmax weights and the
  attended value of Spec, at the masked scores computed from its own arguments.
-/
import proofs.«416368_j68539088109695_2_alg».proof.Proof.Gen.ReferenceIdeal.Read
import proofs.«416368_j68539088109695_2_alg».proof.Proof.Spec

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.Attn

open Cert.ReferenceIdeal.Read

/-! ### Composed index maps, named by coordinates -/

theorem lidx_v0 (b : Fin 32) (t : Fin 2048) (o k : Fin 1024) : lidx_main_v0 (ix3 b t o) k = ix3 b t k :=
  funext fun a => Fin.ext (by match a with | ⟨0, _⟩ => rfl | ⟨1, _⟩ => rfl | ⟨2, _⟩ => rfl)
theorem ridx_v0 (b : Fin 32) (t : Fin 2048) (o k : Fin 1024) : ridx_main_v0 (ix3 b t o) k = ix2 o k :=
  funext fun a => Fin.ext (by match a with | ⟨0, _⟩ => rfl | ⟨1, _⟩ => rfl)
theorem lidx_v4 (b : Fin 32) (t : Fin 2048) (o k : Fin 1024) : lidx_main_v4 (ix3 b t o) k = ix3 b t k :=
  funext fun a => Fin.ext (by match a with | ⟨0, _⟩ => rfl | ⟨1, _⟩ => rfl | ⟨2, _⟩ => rfl)
theorem ridx_v4 (b : Fin 32) (t : Fin 2048) (o k : Fin 1024) : ridx_main_v4 (ix3 b t o) k = ix2 o k :=
  funext fun a => Fin.ext (by match a with | ⟨0, _⟩ => rfl | ⟨1, _⟩ => rfl)
theorem idx_v2 (b : Fin 32) (t : Fin 2048) (o : Fin 1024) : idx_main_v1 (idx_main_v2 (ix3 b t o)) = ix1 o :=
  funext fun a => Fin.ext (by match a with | ⟨0, _⟩ => rfl)
theorem idx_v6 (b : Fin 32) (t : Fin 2048) (o : Fin 1024) : idx_main_v5 (idx_main_v6 (ix3 b t o)) = ix1 o :=
  funext fun a => Fin.ext (by match a with | ⟨0, _⟩ => rfl)
theorem lidx_v10 (b : Fin 32) (t : Fin 2048) (k : Fin 1024) : lidx_main_v10 (ix3 b t (0 : Fin 1)) k = ix3 b t k :=
  funext fun a => Fin.ext (by match a with | ⟨0, _⟩ => rfl | ⟨1, _⟩ => rfl | ⟨2, _⟩ => rfl)
theorem ridx_v10 (b : Fin 32) (t : Fin 2048) (k : Fin 1024) : ridx_main_v10 (ix3 b t (0 : Fin 1)) k = ix2 (0 : Fin 1) k :=
  funext fun a => Fin.ext (by match a with | ⟨0, _⟩ => rfl | ⟨1, _⟩ => rfl)
theorem idx_v12 (b : Fin 32) (t : Fin 2048) : idx_main_v11 (idx_main_v12 (ix3 b t (0 : Fin 1))) = ix1 (0 : Fin 1) :=
  funext fun a => Fin.ext (by match a with | ⟨0, _⟩ => rfl)
theorem idx_v17 (b : Fin 32) (t : Fin 2048) : idx_main_v15 (idx_main_v17 (ix3 b t (0 : Fin 1))) = ix1 t :=
  funext fun a => Fin.ext (by match a with | ⟨0, _⟩ => rfl)
theorem idx_v18 (b : Fin 32) (t : Fin 2048) : idx_main_v16 (idx_main_v18 (ix3 b t (0 : Fin 1))) = ix1 b :=
  funext fun a => Fin.ext (by match a with | ⟨0, _⟩ => rfl)
theorem idx_v25 (b : Fin 32) (t : Fin 2048) : idx_main_v24 (idx_main_v25 (ix3 b t (0 : Fin 1))) = ix2 b (0 : Fin 1) :=
  funext fun a => Fin.ext (by match a with | ⟨0, _⟩ => rfl | ⟨1, _⟩ => rfl)
theorem idx_v30 (b : Fin 32) (t : Fin 2048) : idx_main_v29 (idx_main_v30 (ix3 b t (0 : Fin 1))) = ix2 b (0 : Fin 1) :=
  funext fun a => Fin.ext (by match a with | ⟨0, _⟩ => rfl | ⟨1, _⟩ => rfl)
theorem idx_v28 (b : Fin 32) (k : Fin 2048) : idx_main_v28 (ix2 b (0 : Fin 1)) k = ix3 b k (0 : Fin 1) :=
  funext fun a => Fin.ext (by match a with | ⟨0, _⟩ => rfl | ⟨1, _⟩ => rfl | ⟨2, _⟩ => rfl)
theorem lidx_v32 (b : Fin 32) (h : Fin 1024) (k : Fin 2048) : lidx_main_v32 (ix3 b (0 : Fin 1) h) k = ix3 b k (0 : Fin 1) :=
  funext fun a => Fin.ext (by match a with | ⟨0, _⟩ => rfl | ⟨1, _⟩ => rfl | ⟨2, _⟩ => rfl)
theorem ridx_v32 (b : Fin 32) (h : Fin 1024) (k : Fin 2048) : ridx_main_v32 (ix3 b (0 : Fin 1) h) k = ix3 b k h :=
  funext fun a => Fin.ext (by match a with | ⟨0, _⟩ => rfl | ⟨1, _⟩ => rfl | ⟨2, _⟩ => rfl)

/-- The bit pattern of the maximum's initial value denotes −∞. -/
theorem ofBits_neg_inf : Ideal.ofBits .f32 0xFF800000#32 = ⊥ := by
  simp [Ideal.ofBits, Ideal.ieee]

section Stages

variable (x0 x1 : (⟨S32x2048x1024, .f32⟩ : BufTy).Contents (Elt Ideal)) (x3 : (⟨S32, .i32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))
  (x8 : (⟨S1x1024, .f32⟩ : BufTy).Contents (Elt Ideal)) (x9 : (⟨S1, .f32⟩ : BufTy).Contents (Elt Ideal))

/-- The sum of the two biased projections. -/
theorem stage_proj (b : Fin 32) (t : Fin 2048) (o : Fin 1024) :
    val_main_v8 (F := Ideal) x0 x1 x4 x5 x6 x7 (ix3 b t o) = proj x0 x1 x4 x6 x5 x7 b t o := by
  rw [val_main_v8_apply, val_main_v3_apply, val_main_v7_apply, val_main_v0_apply, val_main_v4_apply,
    val_main_v2_apply, val_main_v1_apply, val_main_v6_apply, val_main_v5_apply, idx_v2, idx_v6]
  simp only [lidx_v0, ridx_v0, lidx_v4, ridx_v4, Ideal.addf_def]
  rfl

/-- The unmasked score. -/
theorem stage_raw (b : Fin 32) (t : Fin 2048) :
    val_main_v13 (F := Ideal) x0 x1 x4 x5 x6 x7 x8 x9 (ix3 b t (0 : Fin 1)) = raw x0 x1 x4 x6 x5 x7 x8 x9 b t := by
  rw [val_main_v13_apply, val_main_v10_apply, val_main_v12_apply, val_main_v11_apply, idx_v12]
  simp only [lidx_v10, ridx_v10, val_main_v9_apply, stage_proj, Ideal.addf_def, Ideal.hostUnary_tanh_def]
  rfl

/-- The mask bit. -/
theorem stage_mask (b : Fin 32) (t : Fin 2048) :
    val_main_v19 (F := Ideal) x3 (ix3 b t (0 : Fin 1)) = maskBit x3 b t := by
  rw [val_main_v19_apply, val_main_v17_apply, val_main_v15_apply, val_main_v14_apply, val_main_v18_apply,
    val_main_v16_apply, idx_v17, idx_v18]
  rfl

/-- The masked score. -/
theorem stage_score (b : Fin 32) (t : Fin 2048) :
    val_main_v20 (F := Ideal) x0 x1 x3 x4 x5 x6 x7 x8 x9 (ix3 b t (0 : Fin 1))
      = score x0 x1 x3 x4 x6 x5 x7 x8 x9 b t := by
  rw [val_main_v20_apply, stage_mask, stage_raw, val_main_call0_v1_apply, val_main_call0_v0_apply, val_main_cst_apply]
  rfl

/-- The reduction's shape fact in the form that names the inserted coordinate. -/
theorem reduces_d1 : S32x2048x1.Reduces [1] S32x1 := by decide

/-- The source index over row b of the reduced shape with time step t inserted is (b, t, 0). -/
theorem lift_d1 (b : Fin 32) (t : Fin 2048) : reduces_d1.lift (ix2 b (0 : Fin 1)) t = ix3 b t (0 : Fin 1) :=
  funext fun a => Fin.ext (by match a with | ⟨0, _⟩ => rfl | ⟨1, _⟩ => rfl | ⟨2, _⟩ => rfl)

/-- The maximum over the time steps, joined once more with −∞. -/
theorem stage_max (b : Fin 32) :
    val_main_v23 (F := Ideal) x0 x1 x3 x4 x5 x6 x7 x8 x9 (ix2 b (0 : Fin 1))
      = smax (score x0 x1 x3 x4 x6 x5 x7 x8 x9) b := by
  rw [val_main_v23_apply, val_main_v22_apply, val_main_cst_1_apply]
  unfold val_main_v21
  rw [Host.reduce_eq_fold_single FloatOps.maximumf _ _ reducesTo_S32x2048x1_S32x1_d1 reduces_d1 h_S_,
    val_main_cst_0_apply, Ideal.ofBits_def, ofBits_neg_inf]
  have hf : ∀ t : Fin 2048, ((val_main_v20 (F := Ideal) x0 x1 x3 x4 x5 x6 x7 x8 x9) ∘ reduces_d1.lift (ix2 b (0 : Fin 1))) t
      = score x0 x1 x3 x4 x6 x5 x7 x8 x9 b t := fun t =>
    (congrArg (val_main_v20 (F := Ideal) x0 x1 x3 x4 x5 x6 x7 x8 x9) (lift_d1 b t)).trans
      (stage_score x0 x1 x3 x4 x5 x6 x7 x8 x9 b t)
  have key : Finset.fold max (⊥ : EReal)
        ((val_main_v20 (F := Ideal) x0 x1 x3 x4 x5 x6 x7 x8 x9) ∘ reduces_d1.lift (ix2 b (0 : Fin 1)))
        (Finset.univ : Finset (Fin 2048))
      = Finset.fold max ⊥ (fun t : Fin 2048 => score x0 x1 x3 x4 x6 x5 x7 x8 x9 b t) Finset.univ :=
    Finset.fold_congr (fun t _ => hf t)
  unfold smax
  exact congrArg (max (⊥ : EReal)) key

/-- The shifted exponential. -/
theorem stage_exp (b : Fin 32) (t : Fin 2048) :
    val_main_v27 (F := Ideal) x0 x1 x3 x4 x5 x6 x7 x8 x9 (ix3 b t (0 : Fin 1))
      = sexp (score x0 x1 x3 x4 x6 x5 x7 x8 x9) b t := by
  rw [val_main_v27_apply, val_main_v26_apply, val_main_v25_apply, val_main_v24_apply, idx_v25, stage_score, stage_max]
  rfl

/-- The sum of the shifted exponentials, from zero. -/
theorem stage_sum (b : Fin 32) :
    val_main_v28 (F := Ideal) x0 x1 x3 x4 x5 x6 x7 x8 x9 (ix2 b (0 : Fin 1))
      = ssum (score x0 x1 x3 x4 x6 x5 x7 x8 x9) b := by
  rw [val_main_v28_apply, val_main_cst_2_apply, Ideal.ofBits_def, Ideal.ofBits_zero_f32]
  simp only [idx_v28, stage_exp]
  rfl

/-- The attention weight. -/
theorem stage_weight (b : Fin 32) (t : Fin 2048) :
    val_main_v31 (F := Ideal) x0 x1 x3 x4 x5 x6 x7 x8 x9 (ix3 b t (0 : Fin 1))
      = weight (score x0 x1 x3 x4 x6 x5 x7 x8 x9) b t := by
  rw [val_main_v31_apply, val_main_v30_apply, val_main_v29_apply, idx_v30, stage_exp, stage_sum]
  rfl

/-- The attended value. -/
theorem stage_attended (x2 : (⟨S32x2048x1024, .f32⟩ : BufTy).Contents (Elt Ideal)) (b : Fin 32) (h : Fin 1024) :
    val_main_v32 (F := Ideal) x0 x1 x2 x3 x4 x5 x6 x7 x8 x9 (ix3 b (0 : Fin 1) h)
      = attended (score x0 x1 x3 x4 x6 x5 x7 x8 x9) x2 b h := by
  rw [val_main_v32_apply]
  simp only [lidx_v32, ridx_v32, stage_weight]
  rfl

end Stages

variable (m : (ℓ : Loc nD τ sig) → Buf (Elt Ideal) ℓ) (c : Dev nD)

/-- The masked scores of Spec at the reference's arguments. -/
abbrev sc : Fin 32 → Fin 2048 → EReal :=
  score (m ((c.tc : Thread nD τ).loc main_arg0)) (m ((c.tc : Thread nD τ).loc main_arg1)) (m ((c.tc : Thread nD τ).loc main_arg3))
    (m ((c.tc : Thread nD τ).loc main_arg4)) (m ((c.tc : Thread nD τ).loc main_arg6)) (m ((c.tc : Thread nD τ).loc main_arg5))
    (m ((c.tc : Thread nD τ).loc main_arg7)) (m ((c.tc : Thread nD τ).loc main_arg8)) (m ((c.tc : Thread nD τ).loc main_arg9))

/-- The second result (the weights, [32, 2048, 1]) is Spec's `outW`. -/
theorem res_out1_eq : Cert.ReferenceIdeal.Value.res_main_v31 (F := Ideal) m c = outW (sc m c) := by
  rw [val_main_v31_eq]
  funext i
  obtain ⟨b, t, z, rfl⟩ : ∃ b t z, i = ix3 b t z := ⟨i 0, i 1, i 2, eq_ix3 i⟩
  obtain rfl : z = (0 : Fin 1) := Subsingleton.elim _ _
  exact stage_weight _ _ _ _ _ _ _ _ _ b t

/-- The first result (the attended value, [32, 1, 1024]) is Spec's `outV`. -/
theorem res_out0_eq : Cert.ReferenceIdeal.Value.res_main_v32 (F := Ideal) m c
    = outV (sc m c) (m ((c.tc : Thread nD τ).loc main_arg2)) := by
  rw [val_main_v32_eq]
  funext i
  obtain ⟨b, z, h, rfl⟩ : ∃ b z h, i = ix3 b z h := ⟨i 0, i 1, i 2, eq_ix3 i⟩
  obtain rfl : z = (0 : Fin 1) := Subsingleton.elim _ _
  exact stage_attended _ _ _ _ _ _ _ _ _ _ b h

end Cert.ReferenceIdeal.RefValue

end
-- ==== Proof.Finite.lean ====
/-
  Finiteness.  The precondition says every float input entry has absolute value below +∞, so every entry is a
  real number; sums, products and tanh of reals are real, so every masked score is a real number.
-/
import proofs.«416368_j68539088109695_2_alg».proof.Pre_finite_inputs
import proofs.«416368_j68539088109695_2_alg».proof.Proof.Spec
import Idealize.ShloMosaic.Lib.ReduceAll

noncomputable section

namespace Cert.Attn

open Idealize.ShloMosaic Idealize.ShloMosaic.ValueIdx

/-- The pattern of +∞ is the top element. -/
private theorem inf_bits : Ideal.ofBits .f32 0x7F800000#32 = (⊤ : EReal) := by
  simp [Ideal.ofBits, Ideal.ieee]

/-- An extended real whose absolute value is below +∞ is a real number. -/
private theorem real_of_abs_lt (x : EReal)
    (h : Ideal.cmp .olt (max x (-x)) (Ideal.ofBits .f32 0x7F800000#32) = 1#1) : ∃ r : ℝ, x = (r : EReal) := by
  rw [inf_bits] at h
  induction x using EReal.rec with
  | bot => exact absurd h (by simp [Ideal.cmp])
  | coe r => exact ⟨r, rfl⟩
  | top => exact absurd h (by simp [Ideal.cmp])

/-! ## Real numbers are closed under the operations of the score -/

private theorem coe_finsum {ι : Type} (t : Finset ι) (f : ι → ℝ) :
    ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

private theorem real_add {x y : EReal} (hx : ∃ r : ℝ, x = (r : EReal)) (hy : ∃ r : ℝ, y = (r : EReal)) :
    ∃ r : ℝ, x + y = (r : EReal) := by
  obtain ⟨a, rfl⟩ := hx
  obtain ⟨c, rfl⟩ := hy
  exact ⟨a + c, (EReal.coe_add a c).symm⟩

private theorem real_mul {x y : EReal} (hx : ∃ r : ℝ, x = (r : EReal)) (hy : ∃ r : ℝ, y = (r : EReal)) :
    ∃ r : ℝ, x * y = (r : EReal) := by
  obtain ⟨a, rfl⟩ := hx
  obtain ⟨c, rfl⟩ := hy
  exact ⟨a * c, (EReal.coe_mul a c).symm⟩

private theorem real_tanh {x : EReal} (hx : ∃ r : ℝ, x = (r : EReal)) : ∃ r : ℝ, Ideal.tanh x = (r : EReal) := by
  obtain ⟨a, rfl⟩ := hx
  exact ⟨Real.tanh a, Ideal.tanh_coe a⟩

private theorem real_sum {ι : Type} (t : Finset ι) (f : ι → EReal) (hf : ∀ i, ∃ r : ℝ, f i = (r : EReal)) :
    ∃ r : ℝ, ∑ i ∈ t, f i = (r : EReal) := by
  choose g hg using hf
  exact ⟨∑ i ∈ t, g i, by rw [coe_finsum]; exact Finset.sum_congr rfl fun i _ => hg i⟩

/-- The sentinel −10⁹ is a real number. -/
private theorem neg_is_real : ∃ r : ℝ, neg = (r : EReal) := by
  refine ⟨-1000000000, ?_⟩
  simp [neg, Ideal.ofBits, Ideal.ieee, -EReal.coe_mul, -EReal.coe_neg]
  norm_num

/-- Every entry of the nine float arguments is a real number when the precondition holds. -/
theorem real_of_pre [Cert.Pre_finite_inputs.Facts] (a0 a1 a2 : SQ.Idx → EReal) (a3 : SLen.Idx → BitVec 32) (a4 : SW.Idx → EReal) (a5 : SB.Idx → EReal)
    (a6 : SW.Idx → EReal) (a7 : SB.Idx → EReal) (a8 : SWz.Idx → EReal) (a9 : SBz.Idx → EReal)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ i, ∃ r : ℝ, a8 i = (r : EReal)) ∧ (∀ i, ∃ r : ℝ, a9 i = (r : EReal)) := by
  haveI : Subsingleton Cert.Pre_finite_inputs.S_.Idx := ⟨fun a b => funext fun d => d.elim0⟩
  have h0 := congrFun h ValueIdx.ix0
  simp only [Cert.Pre_finite_inputs.fn, Cert.Pre_finite_inputs.fn_part1, Cert.Pre_finite_inputs.fn_part2, andi,
    IntOp.andi_eq_one] at h0
  obtain ⟨⟨⟨⟨⟨⟨⟨⟨e0, e1⟩, e2⟩, e4⟩, e5⟩, e6⟩, e7⟩, e8⟩, e9⟩ := h0
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e4 i),
    fun i => real_of_abs_lt _ (Host.reduce_andi_all _ _ _ _ _ e5 i),
    fun i => real_of_abs_lt _ (Host.reduce_andi_all _ _ _ _ _ e6 i),
    fun i => real_of_abs_lt _ (Host.reduce_andi_all _ _ _ _ _ e7 i),
    fun i => real_of_abs_lt _ (Host.reduce_andi_all _ _ _ _ _ e8 i),
    fun i => real_of_abs_lt _ (Host.reduce_andi_all _ _ _ _ _ e9 i)⟩

/-- The masked score of real inputs is real. -/
theorem score_real (xq xk : SQ.Idx → EReal) (len : SLen.Idx → BitVec 32) (wq wk : SW.Idx → EReal) (bq bk : SB.Idx → EReal)
    (wz : SWz.Idx → EReal) (bz : SBz.Idx → EReal)
    (hq : ∀ i, ∃ r : ℝ, xq i = (r : EReal)) (hk : ∀ i, ∃ r : ℝ, xk i = (r : EReal))
    (hwq : ∀ i, ∃ r : ℝ, wq i = (r : EReal)) (hwk : ∀ i, ∃ r : ℝ, wk i = (r : EReal))
    (hbq : ∀ i, ∃ r : ℝ, bq i = (r : EReal)) (hbk : ∀ i, ∃ r : ℝ, bk i = (r : EReal))
    (hwz : ∀ i, ∃ r : ℝ, wz i = (r : EReal)) (hbz : ∀ i, ∃ r : ℝ, bz i = (r : EReal))
    (b : Fin 32) (t : Fin 2048) : ∃ r : ℝ, score xq xk len wq wk bq bk wz bz b t = (r : EReal) := by
  have hproj : ∀ o, ∃ r : ℝ, proj xq xk wq wk bq bk b t o = (r : EReal) := fun o => by
    unfold proj
    exact real_add (real_add (real_sum _ _ fun h => real_mul (hq _) (hwq _)) (hbq _))
      (real_add (real_sum _ _ fun h => real_mul (hk _) (hwk _)) (hbk _))
  have hraw : ∃ r : ℝ, raw xq xk wq wk bq bk wz bz b t = (r : EReal) := by
    unfold raw
    exact real_add (real_sum _ _ fun o => real_mul (real_tanh (hproj o)) (hwz _)) (hbz _)
  unfold score Scalar.select
  split
  · exact neg_is_real
  · exact hraw

end Cert.Attn

end
-- ==== Proof.lean ====
/-
  Single-query additive attention: a fused Pallas kernel against its jnp reference, over the extended reals.

  Both programs compute, per batch b, the masked scores s[b,t] (tanh of the summed query and key projections,
  contracted with Wz, plus bz; −10⁹ where t ≥ lengths[b]), the softmax weights over t, and the weighted sum of
  the values.  The reference does it in one pass with the maximum subtracted; the kernel sweeps four tiles of
  512 time steps with a running maximum, sum, weighted sum and weight row, rescaling by exp(m_old − m_new) at
  each tile, and divides by the final sum after the last tile.  With finite inputs every score is a real number,
  the running quantities are the partial sums of exp(s − μ) for the current real μ, and the final quotient does
  not depend on μ: the two results agree entry by entry.

  The three frames: the kernel programs' generated frame certificates (their side condition on the prefetched
  table is vacuous here: no index map reads it) and the reference's generated run.  The ideal pass rewrote nothing.
-/
import proofs.«416368_j68539088109695_2_alg».proof.Defs
import proofs.«416368_j68539088109695_2_alg».proof.Proof.Gen.Kernel
import proofs.«416368_j68539088109695_2_alg».proof.Proof.Gen.Kernel.Frame
import proofs.«416368_j68539088109695_2_alg».proof.Proof.Gen.KernelIdeal
import proofs.«416368_j68539088109695_2_alg».proof.Proof.Gen.KernelIdeal.Frame
import proofs.«416368_j68539088109695_2_alg».proof.Proof.Gen.ReferenceIdeal
import proofs.«416368_j68539088109695_2_alg».proof.Proof.Gen.ReferenceIdeal.Run
import proofs.«416368_j68539088109695_2_alg».proof.Proof.Gen.Pre_finite_inputs
import proofs.«416368_j68539088109695_2_alg».proof.Proof.KernelInv
import proofs.«416368_j68539088109695_2_alg».proof.Proof.KernelFinal
import proofs.«416368_j68539088109695_2_alg».proof.Proof.RefValue
import proofs.«416368_j68539088109695_2_alg».proof.Proof.Finite
import Idealize.ShloMosaic.Adequacy
import Idealize.ShloMosaic.Init

noncomputable section

namespace Cert.Proof

open Idealize.ShloMosaic Idealize.ShloMosaic.TcCoe Idealize.SL.Sem Cert.Attn

theorem frame_k : Cert.frame_Kernel := fun m ρ _ => Cert.Kernel.Gen.frame m ρ trivial

theorem frame_ki : Cert.frame_KernelIdeal := fun m ρ _ => Cert.KernelIdeal.Gen.frame m ρ trivial

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- With finite inputs the kernel's two result arrays end at the attended value and the softmax weights of Spec
    (the grid's invariant and the write-backs), and so do the reference's (its run read stage by stage), at
    arguments that agree. -/
theorem algebraic : Cert.algebraic_KernelIdeal_ReferenceIdeal := by
  intro m ρ m' ρ' hpre hagree
  have hO : Cert.KernelIdeal.Gen.Ok m := trivial
  -- every float argument entry is real, so every masked score is
  have hreal := fun c : Dev Cert.KernelIdeal.nD => real_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (hpre c)
  have hs : ∀ (c : Dev Cert.KernelIdeal.nD) (b : Fin 32) (t : Fin 2048), ∃ r : ℝ, Cert.KernelIdeal.Inv.sc m c b t = (r : EReal) := fun c b t =>
    score_real _ _ _ _ _ _ _ _ _ (hreal c).1 (hreal c).2.1 (hreal c).2.2.2.1 (hreal c).2.2.2.2.2.1 (hreal c).2.2.2.2.1
      (hreal c).2.2.2.2.2.2.1 (hreal c).2.2.2.2.2.2.2.1 (hreal c).2.2.2.2.2.2.2.2 b t
  choose sr hsr using hs
  have hv : ∀ (c : Dev Cert.KernelIdeal.nD) (i : SQ.Idx), ∃ r : ℝ, Cert.KernelIdeal.Inv.av m c i = (r : EReal) := fun c i => (hreal c).2.2.1 i
  choose vr hvr using hv
  refine ⟨fun c => outV (Cert.KernelIdeal.Inv.sc m c) (Cert.KernelIdeal.Inv.av m c), fun c => outW (Cert.KernelIdeal.Inv.sc m c), ?_, ?_⟩
  · exact Cert.KernelIdeal.Final.run_value m ρ hO
      (fun c b h => attended (Cert.KernelIdeal.Inv.sc m c) (Cert.KernelIdeal.Inv.av m c) b h)
      (fun c b u => weight (Cert.KernelIdeal.Inv.sc m c) b u)
      (fun c t h3 => Cert.KernelIdeal.Inv.final m hO c (sr c) (vr c) (hsr c) (hvr c) t h3)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.RefValue.res_out0_eq]
      unfold Cert.ReferenceIdeal.RefValue.sc Cert.KernelIdeal.Inv.sc Cert.KernelIdeal.Inv.av
      rw [(hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1, (hagree c).2.2.2.2.2.2.2.2.2]
    · rw [Cert.ReferenceIdeal.RefValue.res_out1_eq]
      unfold Cert.ReferenceIdeal.RefValue.sc Cert.KernelIdeal.Inv.sc
      rw [(hagree c).1, (hagree c).2.1, (hagree c).2.2.2.1, (hagree c).2.2.2.2.1, (hagree c).2.2.2.2.2.1,
        (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
